-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v48 : IVec S_ 1) (main_v50 : IVec S600000 32) (main_c_18 : IVec S_ 32) : IVec S_ 1 :=
  let main_v51 : IVec S600000 32 := broadcastInDim S600000 ![] bcast_S_S600000 main_c_18
  let main_v52 : IVec S600000 1 := cmpi .sge main_v50 main_v51
  let main_c_19 : IVec S_ 1 := constantI S_ 1 1#1
  let main_v53 : IVec S_ 1 := (fun x v => Host.reduce IntOp.andi x v reducesTo_S600000_S_d0 h_S_) main_v52 main_c_19
  let main_v54 : IVec S_ 1 := andi main_v48 main_v53
  let main_v55 : IVec S1x600000 32 := (extractStridedSlice S1x600000 ![0, 0] · slices_S2x600000_S1x600000_0_0) main_arg1
  let main_v56 : IVec S600000 32 := shapeCast S600000 main_v55 shapeCasts_S1x600000_S600000
  let main_c_20 : IVec S_ 32 := constantI S_ 32 50000#32
  let main_v57 : IVec S600000 32 := broadcastInDim S600000 ![] bcast_S_S600000 main_c_20
  let main_v58 : IVec S600000 1 := cmpi .slt main_v56 main_v57
  let main_c_21 : IVec S_ 1 := constantI S_ 1 1#1
  let main_v59 : IVec S_ 1 := (fun x v => Host.reduce IntOp.andi x v reducesTo_S600000_S_d0 h_S_) main_v58 main_c_21
  let main_v60 : IVec S_ 1 := andi main_v54 main_v59
  main_v60

def fn_part2 {F : FTy → Type} [FloatOps F] (main_arg1 : IVec S2x600000 32) (main_arg8 : FVec F S2x128 .f32) (main_arg9 : FVec F S2x128 .f32) (main_arg10 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : IVec S1x600000 32 := (extractStridedSlice S1x600000 ![0, 0] · slices_S2x600000_S1x600000_0_0) main_arg1
  let main_v50 : IVec S600000 32 := shapeCast S600000 main_v49 shapeCasts_S1x600000_S600000
  let main_c_18 : IVec S_ 32 := constantI S_ 32 4294917296#32
  fn_part3 (F := F) main_arg1 main_v48 main_v50 main_c_18

def fn_part1 {F : FTy → Type} [FloatOps F] (main_arg1 : IVec S2x600000 32) (main_arg5 : FVec F S128x128 .f32) (main_arg6 : FVec F S128x128 .f32) (main_arg7 : FVec F S128 .f32) (main_arg8 : FVec F S2x128 .f32) (main_arg9 : FVec F S2x128 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S2x128 .f32) (main_arg9 : FVec F S2x128 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S5000x128 : Shape := ⟨2, ![5000, 128]⟩
abbrev S128x2 : Shape := ⟨2, ![128, 2]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 123
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S2x128, .f32⟩
  | .hbm, ⟨9, _⟩ => ⟨S2x128, .f32⟩
  | .hbm, ⟨10, _⟩ => ⟨S2, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000x1, .f32⟩
  | .hbm, ⟨17, _⟩ => ⟨S_, .f32⟩
  | .hbm, ⟨18, _⟩ => ⟨S50000x1, .f32⟩
  | .hbm, ⟨19, _⟩ => ⟨S600000x1, .i32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S1, .i32⟩
  | .hbm, ⟨33, _⟩ => ⟨S_, .i32⟩
  | .hbm, ⟨34, _⟩ => ⟨S600000x1, .i32⟩
  | .hbm, ⟨35, _⟩ => ⟨S600000x1, .i1⟩
  | .hbm, ⟨36, _⟩ => ⟨S1x1, .i32⟩
  | .hbm, ⟨37, _⟩ => ⟨S600000x1, .i32⟩
  | .hbm, ⟨38, _⟩ => ⟨S600000x1, .i1⟩
  | .hbm, ⟨39, _⟩ => ⟨S600000x1, .i1⟩
  | .hbm, ⟨40, _⟩ => ⟨S_, .i1⟩
  | .hbm, ⟨41, _⟩ => ⟨S600000, .i1⟩
  | .hbm, ⟨42, _⟩ => ⟨S600000x128, .f32⟩
  | .hbm, ⟨43, _⟩ => ⟨S600000x128, .i1⟩
  | .hbm, ⟨44, _⟩ => ⟨S_, .f32⟩
  | .hbm, ⟨45, _⟩ => ⟨S600000x128, .f32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S128x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S1, .i32⟩
  | .hbm, ⟨66, _⟩ => ⟨S_, .i32⟩
  | .hbm, ⟨67, _⟩ => ⟨S600000x1, .i32⟩
  | .hbm, ⟨68, _⟩ => ⟨S600000x1, .i1⟩
  | .hbm, ⟨69, _⟩ => ⟨S1x1, .i32⟩
  | .hbm, ⟨70, _⟩ => ⟨S600000x1, .i32⟩
  | .hbm, ⟨71, _⟩ => ⟨S600000x1, .i1⟩
  | .hbm, ⟨72, _⟩ => ⟨S600000x1, .i1⟩
  | .hbm, ⟨73, _⟩ => ⟨S_, .i1⟩
  | .hbm, ⟨74, _⟩ => ⟨S600000, .i1⟩
  | .hbm, ⟨75, _⟩ => ⟨S600000x128, .f32⟩
  | .hbm, ⟨76, _⟩ => ⟨S600000x128, .i1⟩
  | .hbm, ⟨77, _⟩ => ⟨S_, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S50000x128, .f32⟩
  | .hbm, ⟨82, _⟩ => ⟨S600000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S128x128, .f32⟩
  | .hbm, ⟨87, _⟩ => ⟨S128x128, .f32⟩
  | .hbm, ⟨88, _⟩ => ⟨S1x128, .f32⟩
  | .hbm, ⟨89, _⟩ => ⟨S50000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S1, .i32⟩
  | .hbm, ⟨99, _⟩ => ⟨S_, .i32⟩
  | .hbm, ⟨100, _⟩ => ⟨S600000x1, .i32⟩
  | .hbm, ⟨101, _⟩ => ⟨S600000x1, .i1⟩
  | .hbm, ⟨102, _⟩ => ⟨S1x1, .i32⟩
  | .hbm, ⟨103, _⟩ => ⟨S600000x1, .i32⟩
  | .hbm, ⟨104, _⟩ => ⟨S600000x1, .i1⟩
  | .hbm, ⟨105, _⟩ => ⟨S600000x1, .i1⟩
  | .hbm, ⟨106, _⟩ => ⟨S_, .i1⟩
  | .hbm, ⟨107, _⟩ => ⟨S600000, .i1⟩
  | .hbm, ⟨108, _⟩ => ⟨S600000x128, .f32⟩
  | .hbm, ⟨109, _⟩ => ⟨S600000x128, .i1⟩
  | .hbm, ⟨110, _⟩ => ⟨S_, .f32⟩
  | .hbm, ⟨111, _⟩ => ⟨S600000x128, .f32⟩
  | .hbm, ⟨112, _⟩ => ⟨S600000x128, .f32⟩
  | .hbm, ⟨113, _⟩ => ⟨S_, .f32⟩
  | .hbm, ⟨114, _⟩ => ⟨S50000x128, .f32⟩
  | .hbm, ⟨115, _⟩ => ⟨S600000x1, .i32⟩
  | .hbm, ⟨116, _⟩ => ⟨S50000x128, .f32⟩
  | .hbm, ⟨117, _⟩ => ⟨S50000x128, .f32⟩
  | .hbm, ⟨118, _⟩ => ⟨S50000x128, .f32⟩
  | .hbm, ⟨119, _⟩ => ⟨S128x2, .f32⟩
  | .hbm, ⟨120, _⟩ => ⟨S128x2, .f32⟩
  | .hbm, ⟨121, _⟩ => ⟨S1x2, .f32⟩
  | .hbm, ⟨122, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x2, .f32⟩
  | .local _ .vmem, ⟨23, _⟩ => ⟨S128x2, .f32⟩
  | .local _ .vmem, ⟨24, _⟩ => ⟨S1x2, .f32⟩
  | .local _ .vmem, ⟨25, _⟩ => ⟨S5000x2, .f32⟩
  | .local _ .vmem, ⟨26, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v10 : Ref sig .tc := ⟨.hbm, 46, rfl⟩
abbrev main_cst_2 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v20 : Ref sig .tc := ⟨.hbm, 79, rfl⟩
abbrev main_cst_3 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v30 : Ref sig .tc := ⟨.hbm, 112, rfl⟩
abbrev main_cst_4 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S50000x2.size a
  hwx2_5 : ∀ i : grid2.Coords, EltTy.bits .f32 = 32 ∨ (Rect.block (s := S50000x2) S5000x2.size (cc2_transform_5 i) (hinb2_5 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S2x128, .f32⟩
  | .hbm, ⟨9, _⟩ => ⟨S2x128, .f32⟩
  | .hbm, ⟨10, _⟩ => ⟨S2, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000x1, .f32⟩
  | .hbm, ⟨30, _⟩ => ⟨S_, .f32⟩
  | .hbm, ⟨31, _⟩ => ⟨S50000x1, .f32⟩
  | .hbm, ⟨32, _⟩ => ⟨S600000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S600000x1, .f32⟩
  | .hbm, ⟨65, _⟩ => ⟨S_, .f32⟩
  | .hbm, ⟨66, _⟩ => ⟨S50000x1, .f32⟩
  | .hbm, ⟨67, _⟩ => ⟨S600000x1, .i32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S_, .f32⟩
  | .hbm, ⟨95, _⟩ => ⟨S50000x128, .f32⟩
  | .hbm, ⟨96, _⟩ => ⟨S600000x1, .i32⟩
  | .hbm, ⟨97, _⟩ => ⟨S50000x128, .f32⟩
  | .hbm, ⟨98, _⟩ => ⟨S_, .f32⟩
  | .hbm, ⟨99, _⟩ => ⟨S600000x1, .f32⟩
  | .hbm, ⟨100, _⟩ => ⟨S_, .f32⟩
  | .hbm, ⟨101, _⟩ => ⟨S50000x1, .f32⟩
  | .hbm, ⟨102, _⟩ => ⟨S600000x1, .i32⟩
  | .hbm, ⟨103, _⟩ => ⟨S50000x1, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S128x2, .f32⟩
  | .hbm, ⟨110, _⟩ => ⟨S50000x2, .f32⟩
  | .hbm, ⟨111, _⟩ => ⟨S1x2, .f32⟩
  | .hbm, ⟨112, _⟩ => ⟨S50000x2, .f32⟩
  | .hbm, ⟨113, _⟩ => ⟨S50000x2, .f32⟩
  | .hbm, ⟨114, _⟩ => ⟨S128x2, .f32⟩
  | .hbm, ⟨115, _⟩ => ⟨S50000x2, .f32⟩
  | .hbm, ⟨116, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelTerms.lean ====
/-
  The host-side quantities of the blocked program, named: from the edge list `e` (row 0 the source node of each
  edge, row 1 its target) the gather indices with negative sources wrapped once by the node count, the test that
  a wrapped source lies in [0, 49999], the gathered source rows with the rows failing that test replaced by a
  not-a-number pattern, the per-target edge count clamped below at one, and the mean of the gathered rows over
  each target's incoming edges. Each is the composition of host operations exactly as the program applies them,
  so that a later statement about the program's buffers can name them instead of spelling them out.
-/
import proofs.«400809_j43980465111675_1_alg».proof.Proof.Gen.KernelIdeal

noncomputable section

namespace Cert.KernelIdeal.Layers

open Cert.KernelIdeal Cert.KernelIdeal.Facts₀ Cert.KernelIdeal.Facts Idealize.ShloMosaic

variable {F : FTy → Type} [FloatOps F]

/-- Row 0 of the edge list as a vector: each edge's source node. -/
def srcRow (e : IVec S2x600000 32) : IVec S600000 32 :=
  shapeCast _ (extractStridedSlice S1x600000 ![0, 0] e slices_S2x600000_S1x600000_0_0) shapeCasts_S1x600000_S600000

/-- Row 1 of the edge list as a vector: each edge's target node. -/
def dstRow (e : IVec S2x600000 32) : IVec S600000 32 :=
  shapeCast _ (extractStridedSlice S1x600000 ![1, 0] e slices_S2x600000_S1x600000_1_0) shapeCasts_S1x600000_S600000

/-- A negative source is wrapped once by the node count (50000); others are left alone. -/
def wrapped (e : IVec S2x600000 32) : IVec S600000 32 :=
  select (cmpi .slt (srcRow e) (broadcastInDim S600000 ![] bcast_S_S600000 (constantI S_ 32 0#32)))
    (addi (srcRow e) (broadcastInDim S600000 ![] bcast_S_S600000 (constantI S_ 32 50000#32))) (srcRow e)

/-- The wrapped sources as a column of start indices for the row gather. -/
def srcIdx (e : IVec S2x600000 32) : IVec S600000x1 32 :=
  broadcastInDim S600000x1 ![0] bcast_S600000_S600000x1_0 (wrapped e)

/-- Per edge: is the wrapped source in [0, 49999]? (An `and` over the one index coordinate.) -/
def inRange (e : IVec S2x600000 32) : IVec S600000 1 :=
  Host.reduce IntOp.andi
    (andi (cmpi .sge (srcIdx e) (broadcastInDim S600000x1 ![] bcast_S_S600000x1 (constantI S_ 32 0#32)))
      (cmpi .sle (srcIdx e) (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_

/-- The rows of `h` at the wrapped sources. -/
def gathered (e : IVec S2x600000 32) (h : FVec F S50000x128 .f32) : FVec F S600000x128 .f32 :=
  Host.gather gather_S50000x128_S600000x1_S600000x128_1_0_n_n_0_1_1128 h (srcIdx e)

/-- The same rows with every edge whose wrapped source fails the range test replaced by the pattern 0x7FC00000. -/
def taken (e : IVec S2x600000 32) (h : FVec F S50000x128 .f32) : FVec F S600000x128 .f32 :=
  select (broadcastInDim S600000x128 ![0] bcast_S600000_S600000x128_0 (inRange e)) (gathered e h)
    (broadcastInDim S600000x128 ![] bcast_S_S600000x128 (constant S_ .f32 0x7FC00000#32))

/-- The targets as a column of scatter indices. -/
def dstIdx (e : IVec S2x600000 32) : IVec S600000x1 32 :=
  broadcastInDim S600000x1 ![0] bcast_S600000_S600000x1_0 (dstRow e)

/-- Per node, the number of incoming edges, at least one, repeated along the 128 features. -/
def degree (e : IVec S2x600000 32) : FVec F S50000x128 .f32 :=
  broadcastInDim S50000x128 ![0, 1] bcast_S50000x1_S50000x128_0_1
    (maximumf
      (Host.scatterAdd scatter_S50000x1_S600000x1_S600000x1_1_0_0_1 (broadcastInDim S50000x1 ![] bcast_S_S50000x1 (constant S_ .f32 0x00000000#32))
        (dstIdx e) (broadcastInDim S600000x1 ![] bcast_S_S600000x1 (constant S_ .f32 0x3F800000#32)))
      (broadcastInDim S50000x1 ![] bcast_S_S50000x1 (constant S_ .f32 0x3F800000#32)))

/-- Rows `r` (one per edge) summed into their targets and divided by the degree. -/
def meanOver (e : IVec S2x600000 32) (r : FVec F S600000x128 .f32) : FVec F S50000x128 .f32 :=
  Host.divf
    (Host.scatterAdd scatter_S50000x128_S600000x1_S600000x128_1_0_0_1
      (broadcastInDim S50000x128 ![] bcast_S_S50000x128 (constant S_ .f32 0x00000000#32)) (dstIdx e) r)
    (degree e)

end Cert.KernelIdeal.Layers

end
-- ==== Proof.LibMaskedReads.lean ====
/-
  Two small facts for reading a host program that masks what it gathers.

  1. A module-local function's operations address their buffers through typed references, and a fold of host
     operations read through them carries a value into the buffer's own type and back. Written then read is the
     identity, for any typed reference: rewriting with it removes every such round trip from a fold's result before
     the result is compared with a plain term.
  2. An index-range test printed as `all` over an axis is a reduction by `and` from the word 1. If every word of the
     operand is 1 the reduction is 1 at every result index: the converse of reading a true `all` back to its
     operand's words.
-/
import Idealize.ShloMosaic.Lib.StableHlo
import Idealize.ShloMosaic.Lib.ReduceAll

namespace Cert.Lib.MaskedReads

open Idealize.ShloMosaic

/-- A value carried into a typed reference's buffer and read back is the value (the two transports run along one
    equation between the buffer's type and the value's, in opposite directions). -/
theorem ofBuf_toBuf {sig : RefSig} {T : BufTy} {Val : EltTy → Type} (x : StableHlo.TRef sig T) (v : T.Contents Val) :
    x.ofBuf (x.toBuf v) = v := by
  obtain ⟨r, h, h2, h3⟩ := x
  subst h
  rfl

/-- A left fold by `and` from 1 over a list whose every word is 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduction by `and` whose initial word is 1 and whose operand is 1 everywhere is 1 at every result index:
    the reduction at an index is a left fold from the initial word over some of the operand's words. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun n _ => hx n)

end Cert.Lib.MaskedReads
-- ==== Proof.KernelFold.lean ====
/-
  What the three blocked matrix products find in their operand buffers, and what the program returns.

  The program alternates host stretches with the three products. From the launch memory, with `e` the edge list
  and `x` the node features: the first product is entered with its first operand holding the mean over incoming
  edges of the masked-gathered rows of `x`, its second `x` itself, then the two weights transposed and the bias as a
  row. Its output array `h₁` is what the second product's stretch gathers from and what its second operand holds;
  likewise `h₂` for the third. The edge rows and the per-node edge count are computed once, before the first product,
  and nothing later writes them, so every later stretch reads the same source row, target row and count.
  Each fact is the fold of the host operations read at one buffer. A value written into a typed buffer and read back
  is the value; that is the only thing said here about the typed references of the gather's stretch.
-/
import proofs.«400809_j43980465111675_1_alg».proof.Proof.Gen.KernelIdeal.Frame
import proofs.«400809_j43980465111675_1_alg».proof.Proof.KernelTerms
import proofs.«400809_j43980465111675_1_alg».proof.Proof.LibMaskedReads
import Idealize.ShloMosaic.Lib.StableHlo.Run

set_option maxRecDepth 16384

noncomputable section

namespace Cert.KernelIdeal.Fold

open Cert.KernelIdeal Cert.KernelIdeal.Gen Cert.Lib.MaskedReads
open Idealize.ShloMosaic Idealize.ShloMosaic.TcCoe Idealize.SL.Sem Idealize.ShloMosaic.StableHlo

variable {F : FTy → Type} [FloatOps F]

/-! ## Typed buffers: at these buffers the transport is the identity -/

/-- At the buffers the gather's stretches write and read, the transport along the buffer's type is the identity. -/
theorem toBuf_rows0 (p1 p2 p3) (X : FVec F S600000x128 .f32) :
    (StableHlo.TRef.of main_v10 p1 p2 p3 : StableHlo.TRef sig ⟨S600000x128, .f32⟩).toBuf (Val := Elt F) X = X := rfl
theorem toBuf_rows1 (p1 p2 p3) (X : FVec F S600000x128 .f32) :
    (StableHlo.TRef.of main_v20 p1 p2 p3 : StableHlo.TRef sig ⟨S600000x128, .f32⟩).toBuf (Val := Elt F) X = X := rfl
theorem toBuf_rows2 (p1 p2 p3) (X : FVec F S600000x128 .f32) :
    (StableHlo.TRef.of main_v30 p1 p2 p3 : StableHlo.TRef sig ⟨S600000x128, .f32⟩).toBuf (Val := Elt F) X = X := rfl
theorem ofBuf_src (p1 p2 p3) (s : IVec S600000 32) :
    (StableHlo.TRef.of main_v1 p1 p2 p3 : StableHlo.TRef sig ⟨S600000, .i32⟩).ofBuf (Val := Elt F) s = s := rfl
theorem ofBuf_feat0 (p1 p2 p3) (x : FVec F S50000x128 .f32) :
    (StableHlo.TRef.of main_arg0 p1 p2 p3 : StableHlo.TRef sig ⟨S50000x128, .f32⟩).ofBuf (Val := Elt F) x = x := rfl
theorem ofBuf_feat1 (p1 p2 p3) (x : FVec F S50000x128 .f32) :
    (StableHlo.TRef.of main_v19 p1 p2 p3 : StableHlo.TRef sig ⟨S50000x128, .f32⟩).ofBuf (Val := Elt F) x = x := rfl
theorem ofBuf_feat2 (p1 p2 p3) (x : FVec F S50000x128 .f32) :
    (StableHlo.TRef.of main_v29 p1 p2 p3 : StableHlo.TRef sig ⟨S50000x128, .f32⟩).ofBuf (Val := Elt F) x = x := rfl

/-- Per node, the number of incoming edges, at least one: the degree before it is repeated along the features. -/
def count (e : IVec S2x600000 32) : FVec F S50000x1 .f32 :=
  maximumf
    (Host.scatterAdd scatter_S50000x1_S600000x1_S600000x1_1_0_0_1 (broadcastInDim S50000x1 ![] bcast_S_S50000x1 (constant S_ .f32 0x00000000#32))
      (Layers.dstIdx e) (broadcastInDim S600000x1 ![] bcast_S_S600000x1 (constant S_ .f32 0x3F800000#32)))
    (broadcastInDim S50000x1 ![] bcast_S_S50000x1 (constant S_ .f32 0x3F800000#32))

variable (m : (ℓ : Loc nD τ sig) → Buf (Elt F) ℓ) (ρ : Dev nD → PrngReg)

/-- The edge list and the node features as launched. -/
abbrev edges (c : Dev nD) : IVec S2x600000 32 := m ((c : Thread nD τ).loc main_arg1)
abbrev feats (c : Dev nD) : FVec F S50000x128 .f32 := m ((c : Thread nD τ).loc main_arg0)

/-! ## Before the first product: from the launch memory -/

theorem w3_src (c : Dev nD) : W3 m ρ c (Proc.devRef .tc main_v1) = Layers.srcRow (edges m c) := by
  show StableHlo.after hostOps0_2 (StableHlo.after hostOps0_1 (StableHlo.after hostOps0 (W0 m ρ c))) (Proc.devRef .tc main_v1) = _
  after_results_simp
  rfl

theorem w3_dst (c : Dev nD) : W3 m ρ c (Proc.devRef .tc main_v3) = Layers.dstRow (edges m c) := by
  show StableHlo.after hostOps0_2 (StableHlo.after hostOps0_1 (StableHlo.after hostOps0 (W0 m ρ c))) (Proc.devRef .tc main_v3) = _
  after_results_simp
  rfl

theorem w3_cnt (c : Dev nD) : W3 m ρ c (Proc.devRef .tc main_v9) = count (edges m c) := by
  show StableHlo.after hostOps0_2 (StableHlo.after hostOps0_1 (StableHlo.after hostOps0 (W0 m ρ c))) (Proc.devRef .tc main_v9) = _
  after_results_simp
  unfold count Layers.dstIdx Layers.dstRow
  rfl

theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem w3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

theorem w3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

theorem w3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp

theorem w3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp

theorem w3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp

theorem w3_arg10 (c : Dev nD) : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp

set_option maxHeartbeats 8000000 in
/-- The first product's first operand: the mean over incoming edges of the masked-gathered rows of `x`. -/
theorem r0_agg (c : Dev nD) : W3 m ρ c (Proc.devRef .tc main_v15) = Layers.meanOver (edges m c) (Layers.taken (edges m c) (feats m c)) := by
  show StableHlo.after hostOps0_2 (StableHlo.after hostOps0_1 (StableHlo.after hostOps0 (W0 m ρ c))) (Proc.devRef .tc main_v15) = _
  after_results_simp
  simp only [ofBuf_toBuf, toBuf_rows0, ofBuf_src, ofBuf_feat0]
  unfold Layers.meanOver Layers.taken Layers.degree Layers.dstIdx Layers.gathered Layers.inRange Layers.srcIdx Layers.wrapped Layers.dstRow Layers.srcRow
  rfl

theorem r0_wl (c : Dev nD) : W3 m ρ c (Proc.devRef .tc main_v16)
    = transpose S128x128 [1, 0] (m ((c : Thread nD τ).loc main_arg2)) transposes_S128x128_S128x128_1_0 := by
  show StableHlo.after hostOps0_2 (StableHlo.after hostOps0_1 (StableHlo.after hostOps0 (W0 m ρ c))) (Proc.devRef .tc main_v16) = _
  after_results_simp

theorem r0_wr (c : Dev nD) : W3 m ρ c (Proc.devRef .tc main_v17)
    = transpose S128x128 [1, 0] (m ((c : Thread nD τ).loc main_arg3)) transposes_S128x128_S128x128_1_0 := by
  show StableHlo.after hostOps0_2 (StableHlo.after hostOps0_1 (StableHlo.after hostOps0 (W0 m ρ c))) (Proc.devRef .tc main_v17) = _
  after_results_simp

theorem r0_b (c : Dev nD) : W3 m ρ c (Proc.devRef .tc main_v18)
    = shapeCast S1x128 (m ((c : Thread nD τ).loc main_arg4)) shapeCasts_S128_S1x128 := by
  show StableHlo.after hostOps0_2 (StableHlo.after hostOps0_1 (StableHlo.after hostOps0 (W0 m ρ c))) (Proc.devRef .tc main_v18) = _
  after_results_simp
  rfl

/-! ## After the first product -/

/-- What the first product leaves in its output array. -/
abbrev h1 (c : Dev nD) : FVec F S50000x128 .f32 := (dat0 (V3 m ρ) c).arrAt 5 cfg0.N

theorem w4_out (c : Dev nD) : W4 m ρ c (Proc.devRef .tc main_v19) = h1 m ρ c := W4_arr m ρ c 5
theorem w4_src (c : Dev nD) : W4 m ρ c (Proc.devRef .tc main_v1) = Layers.srcRow (edges m c) :=
  (W4_of_ne m ρ c main_v1 (by decide)).trans (w3_src m ρ c)
theorem w4_dst (c : Dev nD) : W4 m ρ c (Proc.devRef .tc main_v3) = Layers.dstRow (edges m c) :=
  (W4_of_ne m ρ c main_v3 (by decide)).trans (w3_dst m ρ c)
theorem w4_cnt (c : Dev nD) : W4 m ρ c (Proc.devRef .tc main_v9) = count (edges m c) :=
  (W4_of_ne m ρ c main_v9 (by decide)).trans (w3_cnt m ρ c)
theorem w4_arg5 (c : Dev nD) : W4 m ρ c (Proc.devRef .tc main_arg5) = m ((c : Thread nD τ).loc main_arg5) :=
  (W4_of_ne m ρ c main_arg5 (by decide)).trans (w3_arg5 m ρ c)
theorem w4_arg6 (c : Dev nD) : W4 m ρ c (Proc.devRef .tc main_arg6) = m ((c : Thread nD τ).loc main_arg6) :=
  (W4_of_ne m ρ c main_arg6 (by decide)).trans (w3_arg6 m ρ c)
theorem w4_arg7 (c : Dev nD) : W4 m ρ c (Proc.devRef .tc main_arg7) = m ((c : Thread nD τ).loc main_arg7) :=
  (W4_of_ne m ρ c main_arg7 (by decide)).trans (w3_arg7 m ρ c)
theorem w4_arg8 (c : Dev nD) : W4 m ρ c (Proc.devRef .tc main_arg8) = m ((c : Thread nD τ).loc main_arg8) :=
  (W4_of_ne m ρ c main_arg8 (by decide)).trans (w3_arg8 m ρ c)
theorem w4_arg9 (c : Dev nD) : W4 m ρ c (Proc.devRef .tc main_arg9) = m ((c : Thread nD τ).loc main_arg9) :=
  (W4_of_ne m ρ c main_arg9 (by decide)).trans (w3_arg9 m ρ c)
theorem w4_arg10 (c : Dev nD) : W4 m ρ c (Proc.devRef .tc main_arg10) = m ((c : Thread nD τ).loc main_arg10) :=
  (W4_of_ne m ρ c main_arg10 (by decide)).trans (w3_arg10 m ρ c)

set_option maxHeartbeats 8000000 in
/-- The next product's first operand: the mean over incoming edges of the masked-gathered rows of the first product's output. -/
theorem r1_agg (c : Dev nD) : W6 m ρ c (Proc.devRef .tc main_v25) = Layers.meanOver (edges m c) (Layers.taken (edges m c) (h1 m ρ c)) := by
  show StableHlo.after hostOps1_1 (StableHlo.after hostOps1 (W4 m ρ c)) (Proc.devRef .tc main_v25) = _
  after_results_simp
  simp only [ofBuf_toBuf, toBuf_rows1, ofBuf_src, ofBuf_feat1]
  rw [w4_out, w4_src, w4_dst, w4_cnt]
  unfold Layers.meanOver Layers.taken Layers.degree count Layers.dstIdx Layers.gathered Layers.inRange Layers.srcIdx Layers.wrapped Layers.dstRow Layers.srcRow
  rfl

theorem r1_self (c : Dev nD) : W6 m ρ c (Proc.devRef .tc main_v19) = h1 m ρ c := by
  show StableHlo.after hostOps1_1 (StableHlo.after hostOps1 (W4 m ρ c)) (Proc.devRef .tc main_v19) = _
  after_results_simp
  exact w4_out m ρ c

theorem r1_wl (c : Dev nD) : W6 m ρ c (Proc.devRef .tc main_v26)
    = transpose S128x128 [1, 0] (m ((c : Thread nD τ).loc main_arg5)) transposes_S128x128_S128x128_1_0 := by
  show StableHlo.after hostOps1_1 (StableHlo.after hostOps1 (W4 m ρ c)) (Proc.devRef .tc main_v26) = _
  after_results_simp
  rw [w4_arg5]

theorem r1_wr (c : Dev nD) : W6 m ρ c (Proc.devRef .tc main_v27)
    = transpose S128x128 [1, 0] (m ((c : Thread nD τ).loc main_arg6)) transposes_S128x128_S128x128_1_0 := by
  show StableHlo.after hostOps1_1 (StableHlo.after hostOps1 (W4 m ρ c)) (Proc.devRef .tc main_v27) = _
  after_results_simp
  rw [w4_arg6]

theorem r1_b (c : Dev nD) : W6 m ρ c (Proc.devRef .tc main_v28)
    = shapeCast S1x128 (m ((c : Thread nD τ).loc main_arg7)) shapeCasts_S128_S1x128 := by
  show StableHlo.after hostOps1_1 (StableHlo.after hostOps1 (W4 m ρ c)) (Proc.devRef .tc main_v28) = _
  after_results_simp
  rw [w4_arg7]
  rfl

theorem w6_src (c : Dev nD) : W6 m ρ c (Proc.devRef .tc main_v1) = Layers.srcRow (edges m c) := by
  show StableHlo.after hostOps1_1 (StableHlo.after hostOps1 (W4 m ρ c)) (Proc.devRef .tc main_v1) = _
  after_results_simp
  exact w4_src m ρ c
theorem w6_dst (c : Dev nD) : W6 m ρ c (Proc.devRef .tc main_v3) = Layers.dstRow (edges m c) := by
  show StableHlo.after hostOps1_1 (StableHlo.after hostOps1 (W4 m ρ c)) (Proc.devRef .tc main_v3) = _
  after_results_simp
  exact w4_dst m ρ c
theorem w6_cnt (c : Dev nD) : W6 m ρ c (Proc.devRef .tc main_v9) = count (edges m c) := by
  show StableHlo.after hostOps1_1 (StableHlo.after hostOps1 (W4 m ρ c)) (Proc.devRef .tc main_v9) = _
  after_results_simp
  exact w4_cnt m ρ c
theorem w6_arg8 (c : Dev nD) : W6 m ρ c (Proc.devRef .tc main_arg8) = m ((c : Thread nD τ).loc main_arg8) := by
  show StableHlo.after hostOps1_1 (StableHlo.after hostOps1 (W4 m ρ c)) (Proc.devRef .tc main_arg8) = _
  after_results_simp
  exact w4_arg8 m ρ c
theorem w6_arg9 (c : Dev nD) : W6 m ρ c (Proc.devRef .tc main_arg9) = m ((c : Thread nD τ).loc main_arg9) := by
  show StableHlo.after hostOps1_1 (StableHlo.after hostOps1 (W4 m ρ c)) (Proc.devRef .tc main_arg9) = _
  after_results_simp
  exact w4_arg9 m ρ c
theorem w6_arg10 (c : Dev nD) : W6 m ρ c (Proc.devRef .tc main_arg10) = m ((c : Thread nD τ).loc main_arg10) := by
  show StableHlo.after hostOps1_1 (StableHlo.after hostOps1 (W4 m ρ c)) (Proc.devRef .tc main_arg10) = _
  after_results_simp
  exact w4_arg10 m ρ c

/-! ## After the second product -/

/-- What the second product leaves in its output array. -/
abbrev h2 (c : Dev nD) : FVec F S50000x128 .f32 := (dat1 (V6 m ρ) c).arrAt 5 cfg1.N

theorem w7_out (c : Dev nD) : W7 m ρ c (Proc.devRef .tc main_v29) = h2 m ρ c := W7_arr m ρ c 5
theorem w7_src (c : Dev nD) : W7 m ρ c (Proc.devRef .tc main_v1) = Layers.srcRow (edges m c) :=
  (W7_of_ne m ρ c main_v1 (by decide)).trans (w6_src m ρ c)
theorem w7_dst (c : Dev nD) : W7 m ρ c (Proc.devRef .tc main_v3) = Layers.dstRow (edges m c) :=
  (W7_of_ne m ρ c main_v3 (by decide)).trans (w6_dst m ρ c)
theorem w7_cnt (c : Dev nD) : W7 m ρ c (Proc.devRef .tc main_v9) = count (edges m c) :=
  (W7_of_ne m ρ c main_v9 (by decide)).trans (w6_cnt m ρ c)
theorem w7_arg8 (c : Dev nD) : W7 m ρ c (Proc.devRef .tc main_arg8) = m ((c : Thread nD τ).loc main_arg8) :=
  (W7_of_ne m ρ c main_arg8 (by decide)).trans (w6_arg8 m ρ c)
theorem w7_arg9 (c : Dev nD) : W7 m ρ c (Proc.devRef .tc main_arg9) = m ((c : Thread nD τ).loc main_arg9) :=
  (W7_of_ne m ρ c main_arg9 (by decide)).trans (w6_arg9 m ρ c)
theorem w7_arg10 (c : Dev nD) : W7 m ρ c (Proc.devRef .tc main_arg10) = m ((c : Thread nD τ).loc main_arg10) :=
  (W7_of_ne m ρ c main_arg10 (by decide)).trans (w6_arg10 m ρ c)

set_option maxHeartbeats 8000000 in
/-- The next product's first operand: the mean over incoming edges of the masked-gathered rows of the second product's output. -/
theorem r2_agg (c : Dev nD) : W9 m ρ c (Proc.devRef .tc main_v35) = Layers.meanOver (edges m c) (Layers.taken (edges m c) (h2 m ρ c)) := by
  show StableHlo.after hostOps2_1 (StableHlo.after hostOps2 (W7 m ρ c)) (Proc.devRef .tc main_v35) = _
  after_results_simp
  simp only [ofBuf_toBuf, toBuf_rows2, ofBuf_src, ofBuf_feat2]
  rw [w7_out, w7_src, w7_dst, w7_cnt]
  unfold Layers.meanOver Layers.taken Layers.degree count Layers.dstIdx Layers.gathered Layers.inRange Layers.srcIdx Layers.wrapped Layers.dstRow Layers.srcRow
  rfl

theorem r2_self (c : Dev nD) : W9 m ρ c (Proc.devRef .tc main_v29) = h2 m ρ c := by
  show StableHlo.after hostOps2_1 (StableHlo.after hostOps2 (W7 m ρ c)) (Proc.devRef .tc main_v29) = _
  after_results_simp
  exact w7_out m ρ c

theorem r2_wl (c : Dev nD) : W9 m ρ c (Proc.devRef .tc main_v36)
    = transpose S128x2 [1, 0] (m ((c : Thread nD τ).loc main_arg8)) transposes_S2x128_S128x2_1_0 := by
  show StableHlo.after hostOps2_1 (StableHlo.after hostOps2 (W7 m ρ c)) (Proc.devRef .tc main_v36) = _
  after_results_simp
  rw [w7_arg8]

theorem r2_wr (c : Dev nD) : W9 m ρ c (Proc.devRef .tc main_v37)
    = transpose S128x2 [1, 0] (m ((c : Thread nD τ).loc main_arg9)) transposes_S2x128_S128x2_1_0 := by
  show StableHlo.after hostOps2_1 (StableHlo.after hostOps2 (W7 m ρ c)) (Proc.devRef .tc main_v37) = _
  after_results_simp
  rw [w7_arg9]

theorem r2_b (c : Dev nD) : W9 m ρ c (Proc.devRef .tc main_v38)
    = shapeCast S1x2 (m ((c : Thread nD τ).loc main_arg10)) shapeCasts_S2_S1x2 := by
  show StableHlo.after hostOps2_1 (StableHlo.after hostOps2 (W7 m ρ c)) (Proc.devRef .tc main_v38) = _
  after_results_simp
  rw [w7_arg10]
  rfl

/-! ## What is returned -/

/-- The result buffer ends holding the third product's output array. -/
theorem w10_out (c : Dev nD) : W10 m ρ c (Proc.devRef .tc main_v39) = (dat2 (V9 m ρ) c).arrAt 5 cfg2.N := W10_arr m ρ c 5

end Cert.KernelIdeal.Fold

end
-- ==== Proof.Spec.lean ====
/-
  One dense step of a mean-aggregating graph layer, index by index over the extended reals.

  For a node `i` and an output feature `o`, with `a` the aggregated neighbour features, `h` the node's own
  features, `Wl`, `Wr` the two weight matrices (rows indexed by the output feature) and `b` the bias:

      a[i,:] · Wl[o,:]  +  h[i,:] · Wr[o,:]  +  b[o]

  summed in that order. The first two layers clamp the result below at zero. Two spellings are given: over the
  weights as stored (`sage…`), and over the operands as a row-blocked matrix product meets them (`blockDense…`:
  the weights transposed to [128, O], the bias as a [1, O] row). They are the same numbers; the transposition
  and the row shape are layout only.
-/
import Idealize.ShloMosaic.PureOps.Ideal
import Idealize.ShloMosaic.Lib.ValueIdx

noncomputable section

namespace Cert.SageSpec

open Idealize.ShloMosaic Idealize.ShloMosaic.ValueIdx

/-- Index types of the literal shapes met here. -/
abbrev IxNF := (⟨2, ![50000, 128]⟩ : Shape).Idx
abbrev IxN2 := (⟨2, ![50000, 2]⟩ : Shape).Idx
abbrev IxFF := (⟨2, ![128, 128]⟩ : Shape).Idx
abbrev IxF2 := (⟨2, ![128, 2]⟩ : Shape).Idx
abbrev Ix2F := (⟨2, ![2, 128]⟩ : Shape).Idx
abbrev Ix1F := (⟨2, ![1, 128]⟩ : Shape).Idx
abbrev Ix12 := (⟨2, ![1, 2]⟩ : Shape).Idx
abbrev IxF := (⟨1, ![128]⟩ : Shape).Idx
abbrev Ix2 := (⟨1, ![2]⟩ : Shape).Idx

/-! ## Over the operands of a row-blocked product: weights as [128, O], bias as a [1, O] row -/

/-- Node `i`, feature `o` of a 128-wide layer, before any clamp. -/
def blockAt128 (a h : IxNF → EReal) (wlt wrt : IxFF → EReal) (b2 : Ix1F → EReal) (i : Fin 50000) (o : Fin 128) : EReal :=
  ((∑ k : Fin 128, a (ix2 i k) * wlt (ix2 k o)) + ∑ k : Fin 128, h (ix2 i k) * wrt (ix2 k o)) + b2 (ix2 (0 : Fin 1) o)

/-- A 128-wide layer with the clamp at zero, as one array. -/
def blockDense128 (a h : IxNF → EReal) (wlt wrt : IxFF → EReal) (b2 : Ix1F → EReal) : IxNF → EReal :=
  fun j => max (blockAt128 a h wlt wrt b2 (j 0) (j 1)) 0

/-- Node `i`, feature `o` of the 2-wide last layer (no clamp). -/
def blockAt2 (a h : IxNF → EReal) (wlt wrt : IxF2 → EReal) (b2 : Ix12 → EReal) (i : Fin 50000) (o : Fin 2) : EReal :=
  ((∑ k : Fin 128, a (ix2 i k) * wlt (ix2 k o)) + ∑ k : Fin 128, h (ix2 i k) * wrt (ix2 k o)) + b2 (ix2 (0 : Fin 1) o)

/-- The last layer as one array. -/
def blockDense2 (a h : IxNF → EReal) (wlt wrt : IxF2 → EReal) (b2 : Ix12 → EReal) : IxN2 → EReal :=
  fun j => blockAt2 a h wlt wrt b2 (j 0) (j 1)

/-! ## Over the weights as stored: [O, 128] matrices and an [O] bias -/

/-- Node `i`, feature `o` of a 128-wide layer, before any clamp. -/
def sageAt128 (a h : IxNF → EReal) (Wl Wr : IxFF → EReal) (b : IxF → EReal) (i : Fin 50000) (o : Fin 128) : EReal :=
  ((∑ k : Fin 128, a (ix2 i k) * Wl (ix2 o k)) + ∑ k : Fin 128, h (ix2 i k) * Wr (ix2 o k)) + b (ix1 o)

/-- A 128-wide layer with the clamp at zero. -/
def sage128 (a h : IxNF → EReal) (Wl Wr : IxFF → EReal) (b : IxF → EReal) : IxNF → EReal :=
  fun j => max (sageAt128 a h Wl Wr b (j 0) (j 1)) 0

/-- Node `i`, feature `o` of the 2-wide last layer. -/
def sageAt2 (a h : IxNF → EReal) (Wl Wr : Ix2F → EReal) (b : Ix2 → EReal) (i : Fin 50000) (o : Fin 2) : EReal :=
  ((∑ k : Fin 128, a (ix2 i k) * Wl (ix2 o k)) + ∑ k : Fin 128, h (ix2 i k) * Wr (ix2 o k)) + b (ix1 o)

/-- The last layer as one array. -/
def sage2 (a h : IxNF → EReal) (Wl Wr : Ix2F → EReal) (b : Ix2 → EReal) : IxN2 → EReal :=
  fun j => sageAt2 a h Wl Wr b (j 0) (j 1)

/-- The sum of three terms does not care which of the last two is added first: the one law that joins a
    product-product-bias order to a product-bias-product order. It holds on the extended reals with no finiteness. -/
theorem add_bias_comm (x y z : EReal) : (x + z) + y = (x + y) + z := add_right_comm x z y

end Cert.SageSpec

end
-- ==== Proof.Region0.lean ====
/-
  Layer 1's dense step read as one array.

  The row-blocked product visits ten blocks of 5000 rows. At each it forms, for every row `r` of the block and every
  output feature `o`,  a[r,:] · Wl[:,o] + h[r,:] · Wr[:,o] + b[o], clamped below at zero, from the block's rows of the two
  row-blocked operands, the whole [128, 128] weights and the [1, 128] bias row. Row `r` of block `t` is row `5000 t + r` of the
  array, the blocks tile the [50000, 128] result with no gap, so the result array is that function of the five operand
  arrays at every index.
-/
import proofs.«400809_j43980465111675_1_alg».proof.Proof.Gen.KernelIdeal.Frame
import proofs.«400809_j43980465111675_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product at an index -/

-- The product's index maps, axis by axis: a left operand's entry sits at the output's row and the contracted
-- position, a right operand's at the contracted position and the output's column.

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, at row `r` and column `o`: the sum over the 128 contracted positions. -/
theorem matmul_at {φ₁ φ₂ : FTy} (x : FVec Ideal S5000x128 φ₁) (w : FVec Ideal S128x128 φ₂) (r : Fin 5000) (o : Fin 128) :
    FloatOps.matmul dot_S5000x128_S128x128_S5000x128_1_0_0_1_n_n none x w (constant (F := Ideal) S5000x128 .f32 0x00000000#32) (ix2 r o)
      = ∑ k : Fin 128, x (ix2 r k) * w (ix2 k o) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r o) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r o) ((ValueIdx.contrEquiv1 dot_S5000x128_S128x128_S5000x128_1_0_0_1_n_n 128 rfl rfl).symm k) = ix2 k o := funext fun a => Fin.ext (by
    match a with
    | ⟨0, _⟩ => exact (rhs_contr _ _).trans hk
    | ⟨1, _⟩ => exact rhs_col _ _)
  rw [el, er]

/-! ## The body's stored value at an index -/

/-- The bias row spread down the rows reads the row's entry of the column. -/
theorem bias_at (b : Vec Ideal S1x128 .f32) (r : Fin 5000) (o : Fin 128) :
    broadcastTo S5000x128 b broadcasts_S1x128_S5000x128 (ix2 r o) = b (ix2 (0 : Fin 1) o) :=
  broadcastTo_apply b broadcasts_S1x128_S5000x128 (ix2 r o) (ix2 (0 : Fin 1) o) (fun a => match a with
    | ⟨0, _⟩ => rfl
    | ⟨1, _⟩ => rfl)

/-- Row `r`, column `o` of what the body stores: the two products summed, the bias added, the clamp at zero. -/
theorem pay_at (x0 x1 : Vec Ideal S5000x128 .f32) (x2 x3 : Vec Ideal S128x128 .f32) (x4 : Vec Ideal S1x128 .f32) (r : Fin 5000) (o : Fin 128) :
    k0_pay1 x0 x1 x2 x3 x4 (ix2 r o)
      = max (((∑ k : Fin 128, x0 (ix2 r k) * x2 (ix2 k o)) + ∑ k : Fin 128, x1 (ix2 r k) * x3 (ix2 k o)) + x4 (ix2 (0 : Fin 1) o)) 0 := by
  unfold k0_pay1
  simp only [shapeCast_self]
  rw [maximumf_apply, addf_apply, addf_apply, broadcast_apply, bias_at]
  simp only [matmul]
  rw [matmul_at, matmul_at]
  simp only [truncf_apply]
  exact congrArg _ Ideal.ofBits_zero_f32

/-! ## The windows' blocks as parts of the arrays -/

variable (V : (c : Dev nD) → (b : Ref sig .tc) → Buf (Elt Ideal) ((c : Thread nD τ).loc b))

/-- The five operand arrays as the region finds them, and the result array after it, at their literal shapes. -/
abbrev aggArr (c : Dev nD) : Vec Ideal S50000x128 .f32 := V c (Pipeline.arrRef spec0 0)
abbrev selfArr (c : Dev nD) : Vec Ideal S50000x128 .f32 := V c (Pipeline.arrRef spec0 1)
abbrev wlArr (c : Dev nD) : Vec Ideal S128x128 .f32 := V c (Pipeline.arrRef spec0 2)
abbrev wrArr (c : Dev nD) : Vec Ideal S128x128 .f32 := V c (Pipeline.arrRef spec0 3)
abbrev biasArr (c : Dev nD) : Vec Ideal S1x128 .f32 := V c (Pipeline.arrRef spec0 4)
abbrev outArr (c : Dev nD) : Vec Ideal S50000x128 .f32 := (dat0 (F := Ideal) V c).arrAt 5 cfg0.N

/-- The blocks of the five operand windows at a grid point, at their literal shapes. -/
abbrev aggBlk (c : Dev nD) (t : Fin cfg0.N) : Vec Ideal S5000x128 .f32 := iblk0 V c 0 t
abbrev selfBlk (c : Dev nD) (t : Fin cfg0.N) : Vec Ideal S5000x128 .f32 := iblk0 V c 1 t
abbrev wlBlk (c : Dev nD) (t : Fin cfg0.N) : Vec Ideal S128x128 .f32 := iblk0 V c 2 t
abbrev wrBlk (c : Dev nD) (t : Fin cfg0.N) : Vec Ideal S128x128 .f32 := iblk0 V c 3 t
abbrev biasBlk (c : Dev nD) (t : Fin cfg0.N) : Vec Ideal S1x128 .f32 := iblk0 V c 4 t

theorem hz : (![0, 0] : Fin 2 → Nat) = fun _ => 0 := funext fun a => by fin_cases a <;> rfl

/-- The block indices over the grid: the two row-blocked operands and the result move down the rows with the grid
    point, the weights and the bias stay at the one block they have. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the aggregated-feature block at point `t` is row `5000 t + r` of the array. -/
theorem aggBlk_at (c : Dev nD) (t : Fin cfg0.N) (r : Fin 5000) (k : Fin 128) (i : Fin 50000) (hi : i.val = 5000 * t.val + r.val) :
    aggBlk V c t (ix2 r k) = aggArr V c (ix2 i k) := by
  obtain ⟨e0, e1, -⟩ := idx_facts t
  show V c (Pipeline.arrRef spec0 0) (((cfg0.win 0).blk t).view.emb (ix2 r k)) = V c (Pipeline.arrRef spec0 0) (ix2 i k)
  refine congrArg _ (funext fun a => Fin.ext ?_)
  match a with
  | ⟨0, _⟩ => show win0_0.index t (0 : Fin 2) * 5000 + 1 * r.val = i.val; omega
  | ⟨1, _⟩ => show win0_0.index t (1 : Fin 2) * 128 + 1 * k.val = k.val; omega

/-- Row `r` of the node-feature block at point `t` is row `5000 t + r` of the array. -/
theorem selfBlk_at (c : Dev nD) (t : Fin cfg0.N) (r : Fin 5000) (k : Fin 128) (i : Fin 50000) (hi : i.val = 5000 * t.val + r.val) :
    selfBlk V c t (ix2 r k) = selfArr V c (ix2 i k) := by
  obtain ⟨-, -, e0, e1, -⟩ := idx_facts t
  show V c (Pipeline.arrRef spec0 1) (((cfg0.win 1).blk t).view.emb (ix2 r k)) = V c (Pipeline.arrRef spec0 1) (ix2 i k)
  refine congrArg _ (funext fun a => Fin.ext ?_)
  match a with
  | ⟨0, _⟩ => show win0_1.index t (0 : Fin 2) * 5000 + 1 * r.val = i.val; omega
  | ⟨1, _⟩ => show win0_1.index t (1 : Fin 2) * 128 + 1 * k.val = k.val; omega

/-- The first weight's one block is the whole matrix. -/
theorem wlBlk_at (c : Dev nD) (t : Fin cfg0.N) (k : Fin 128) (o : Fin 128) :
    wlBlk V c t (ix2 k o) = wlArr V c (ix2 k o) := by
  obtain ⟨-, -, -, -, e0, e1, -⟩ := idx_facts t
  show V c (Pipeline.arrRef spec0 2) (((cfg0.win 2).blk t).view.emb (ix2 k o)) = V c (Pipeline.arrRef spec0 2) (ix2 k o)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * o.val = o.val; omega

/-- The second weight's one block is the whole matrix. -/
theorem wrBlk_at (c : Dev nD) (t : Fin cfg0.N) (k : Fin 128) (o : Fin 128) :
    wrBlk V c t (ix2 k o) = wrArr V c (ix2 k o) := by
  obtain ⟨-, -, -, -, -, -, e0, e1, -⟩ := idx_facts t
  show V c (Pipeline.arrRef spec0 3) (((cfg0.win 3).blk t).view.emb (ix2 k o)) = V c (Pipeline.arrRef spec0 3) (ix2 k o)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * o.val = o.val; omega

/-- The bias row's one block is the whole row. -/
theorem biasBlk_at (c : Dev nD) (t : Fin cfg0.N) (z : Fin 1) (o : Fin 128) :
    biasBlk V c t (ix2 z o) = biasArr V c (ix2 z o) := by
  obtain ⟨-, -, -, -, -, -, -, -, e0, e1, -⟩ := idx_facts t
  show V c (Pipeline.arrRef spec0 4) (((cfg0.win 4).blk t).view.emb (ix2 z o)) = V c (Pipeline.arrRef spec0 4) (ix2 z o)
  refine congrArg _ (funext fun a => Fin.ext ?_)
  match a with
  | ⟨0, _⟩ => show win0_4.index t (0 : Fin 2) * 1 + 1 * z.val = z.val; omega
  | ⟨1, _⟩ => show win0_4.index t (1 : Fin 2) * 128 + 1 * o.val = o.val; omega

/-! ## From the blocks to the array -/

/-- The layer at node `i`, feature `o`, spelt out. -/
theorem blockDense128_at (a h : Cert.SageSpec.IxNF → EReal) (wlt wrt : Cert.SageSpec.IxFF → EReal) (b2 : Cert.SageSpec.Ix1F → EReal) (i : Fin 50000) (o : Fin 128) :
    Cert.SageSpec.blockDense128 a h wlt wrt b2 (ix2 i o)
      = max (((∑ k : Fin 128, a (ix2 i k) * wlt (ix2 k o)) + ∑ k : Fin 128, h (ix2 i k) * wrt (ix2 k o)) + b2 (ix2 (0 : Fin 1) o)) 0 := rfl

/-- What grid point `t` writes back is block `t` of the layer's array. -/
theorem flushed_eq (c : Dev nD) (t : Fin cfg0.N) :
    (dat0 (F := Ideal) V c).flushed 5 t
      = ((cfg0.win 5).blk t).view.read (Elt Ideal) (Cert.SageSpec.blockDense128 (aggArr V c) (selfArr V c) (wlArr V c) (wrArr V c) (biasArr V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨r, o, rfl⟩ : ∃ (r : Fin 5000) (o : Fin 128), j = ix2 r o := ⟨j 0, j 1, eq_ix2 j⟩
  have ht : t.val < 10 := lt_of_lt_of_eq t.isLt N_0
  obtain ⟨i, hi⟩ : ∃ i : Fin 50000, i.val = 5000 * t.val + r.val := ⟨⟨5000 * t.val + r.val, by omega⟩, rfl⟩
  obtain ⟨-, -, -, -, -, -, -, -, -, -, e0, e1⟩ := idx_facts t
  have hemb : ((cfg0.win 5).blk t).view.emb (ix2 r o) = (ix2 i o : S50000x128.Idx) := by
    funext a; apply Fin.ext
    match a with
    | ⟨0, _⟩ => show win0_5.index t (0 : Fin 2) * 5000 + 1 * r.val = i.val; omega
    | ⟨1, _⟩ => show win0_5.index t (1 : Fin 2) * 128 + 1 * o.val = o.val; omega
  show k0_pay1 (aggBlk V c t) (selfBlk V c t) (wlBlk V c t) (wrBlk V c t) (biasBlk V c t) (ix2 r o)
    = Cert.SageSpec.blockDense128 (aggArr V c) (selfArr V c) (wlArr V c) (wrArr V c) (biasArr V c) (((cfg0.win 5).blk t).view.emb (ix2 r o))
  rw [hemb, blockDense128_at, pay_at]
  refine congrArg₂ max (congrArg₂ (· + ·) (congrArg₂ (· + ·) (Finset.sum_congr rfl fun k _ => ?_) (Finset.sum_congr rfl fun k _ => ?_)) ?_) rfl
  · rw [aggBlk_at V c t r k i hi, wlBlk_at V c t k o]
  · rw [selfBlk_at V c t r k i hi, wrBlk_at V c t k o]
  · exact biasBlk_at V c t 0 o

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- Every index of the result array is in some point's block: row `n` is in the block of point `n / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e1]; omega

/-- The result array after the region: the 128-wide clamped layer of the five operand arrays as the region found them. -/
theorem region0_array (c : Dev nD) :
    outArr V c = Cert.SageSpec.blockDense128 (aggArr V c) (selfArr V c) (wlArr V c) (wrArr V c) (biasArr V c) :=
  (dat0 (F := Ideal) V c).arrAt_eq_of_cover 5
    (Cert.SageSpec.blockDense128 (aggArr V c) (selfArr V c) (wlArr V c) (wrArr V c) (biasArr V c))
    (fun t _ => flushed_eq V c t) cover

end Cert.KernelIdeal.Region0

end
-- ==== Proof.Region1.lean ====
/-
  Layer 2's dense step read as one array.

  The row-blocked product visits ten blocks of 5000 rows. At each it forms, for every row `r` of the block and every
  output feature `o`,  a[r,:] · Wl[:,o] + h[r,:] · Wr[:,o] + b[o], clamped below at zero, from the block's rows of the two
  row-blocked operands, the whole [128, 128] weights and the [1, 128] bias row. Row `r` of block `t` is row `5000 t + r` of the
  array, the blocks tile the [50000, 128] result with no gap, so the result array is that function of the five operand
  arrays at every index.
-/
import proofs.«400809_j43980465111675_1_alg».proof.Proof.Gen.KernelIdeal.Frame
import proofs.«400809_j43980465111675_1_alg».proof.Proof.Spec
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product at an index -/

-- The product's index maps, axis by axis: a left operand's entry sits at the output's row and the contracted
-- position, a right operand's at the contracted position and the output's column.

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, at row `r` and column `o`: the sum over the 128 contracted positions. -/
theorem matmul_at {φ₁ φ₂ : FTy} (x : FVec Ideal S5000x128 φ₁) (w : FVec Ideal S128x128 φ₂) (r : Fin 5000) (o : Fin 128) :
    FloatOps.matmul dot_S5000x128_S128x128_S5000x128_1_0_0_1_n_n none x w (constant (F := Ideal) S5000x128 .f32 0x00000000#32) (ix2 r o)
      = ∑ k : Fin 128, x (ix2 r k) * w (ix2 k o) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r o) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r o) ((ValueIdx.contrEquiv1 dot_S5000x128_S128x128_S5000x128_1_0_0_1_n_n 128 rfl rfl).symm k) = ix2 k o := funext fun a => Fin.ext (by
    match a with
    | ⟨0, _⟩ => exact (rhs_contr _ _).trans hk
    | ⟨1, _⟩ => exact rhs_col _ _)
  rw [el, er]

/-! ## The body's stored value at an index -/

/-- The bias row spread down the rows reads the row's entry of the column. -/
theorem bias_at (b : Vec Ideal S1x128 .f32) (r : Fin 5000) (o : Fin 128) :
    broadcastTo S5000x128 b broadcasts_S1x128_S5000x128 (ix2 r o) = b (ix2 (0 : Fin 1) o) :=
  broadcastTo_apply b broadcasts_S1x128_S5000x128 (ix2 r o) (ix2 (0 : Fin 1) o) (fun a => match a with
    | ⟨0, _⟩ => rfl
    | ⟨1, _⟩ => rfl)

/-- Row `r`, column `o` of what the body stores: the two products summed, the bias added, the clamp at zero. -/
theorem pay_at (x0 x1 : Vec Ideal S5000x128 .f32) (x2 x3 : Vec Ideal S128x128 .f32) (x4 : Vec Ideal S1x128 .f32) (r : Fin 5000) (o : Fin 128) :
    k1_pay1 x0 x1 x2 x3 x4 (ix2 r o)
      = max (((∑ k : Fin 128, x0 (ix2 r k) * x2 (ix2 k o)) + ∑ k : Fin 128, x1 (ix2 r k) * x3 (ix2 k o)) + x4 (ix2 (0 : Fin 1) o)) 0 := by
  unfold k1_pay1
  simp only [shapeCast_self]
  rw [maximumf_apply, addf_apply, addf_apply, broadcast_apply, bias_at]
  simp only [matmul]
  rw [matmul_at, matmul_at]
  simp only [truncf_apply]
  exact congrArg _ Ideal.ofBits_zero_f32

/-! ## The windows' blocks as parts of the arrays -/

variable (V : (c : Dev nD) → (b : Ref sig .tc) → Buf (Elt Ideal) ((c : Thread nD τ).loc b))

/-- The five operand arrays as the region finds them, and the result array after it, at their literal shapes. -/
abbrev aggArr (c : Dev nD) : Vec Ideal S50000x128 .f32 := V c (Pipeline.arrRef spec1 0)
abbrev selfArr (c : Dev nD) : Vec Ideal S50000x128 .f32 := V c (Pipeline.arrRef spec1 1)
abbrev wlArr (c : Dev nD) : Vec Ideal S128x128 .f32 := V c (Pipeline.arrRef spec1 2)
abbrev wrArr (c : Dev nD) : Vec Ideal S128x128 .f32 := V c (Pipeline.arrRef spec1 3)
abbrev biasArr (c : Dev nD) : Vec Ideal S1x128 .f32 := V c (Pipeline.arrRef spec1 4)
abbrev outArr (c : Dev nD) : Vec Ideal S50000x128 .f32 := (dat1 (F := Ideal) V c).arrAt 5 cfg1.N

/-- The blocks of the five operand windows at a grid point, at their literal shapes. -/
abbrev aggBlk (c : Dev nD) (t : Fin cfg1.N) : Vec Ideal S5000x128 .f32 := iblk1 V c 0 t
abbrev selfBlk (c : Dev nD) (t : Fin cfg1.N) : Vec Ideal S5000x128 .f32 := iblk1 V c 1 t
abbrev wlBlk (c : Dev nD) (t : Fin cfg1.N) : Vec Ideal S128x128 .f32 := iblk1 V c 2 t
abbrev wrBlk (c : Dev nD) (t : Fin cfg1.N) : Vec Ideal S128x128 .f32 := iblk1 V c 3 t
abbrev biasBlk (c : Dev nD) (t : Fin cfg1.N) : Vec Ideal S1x128 .f32 := iblk1 V c 4 t

theorem hz : (![0, 0] : Fin 2 → Nat) = fun _ => 0 := funext fun a => by fin_cases a <;> rfl

/-- The block indices over the grid: the two row-blocked operands and the result move down the rows with the grid
    point, the weights and the bias stay at the one block they have. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the aggregated-feature block at point `t` is row `5000 t + r` of the array. -/
theorem aggBlk_at (c : Dev nD) (t : Fin cfg1.N) (r : Fin 5000) (k : Fin 128) (i : Fin 50000) (hi : i.val = 5000 * t.val + r.val) :
    aggBlk V c t (ix2 r k) = aggArr V c (ix2 i k) := by
  obtain ⟨e0, e1, -⟩ := idx_facts t
  show V c (Pipeline.arrRef spec1 0) (((cfg1.win 0).blk t).view.emb (ix2 r k)) = V c (Pipeline.arrRef spec1 0) (ix2 i k)
  refine congrArg _ (funext fun a => Fin.ext ?_)
  match a with
  | ⟨0, _⟩ => show win1_0.index t (0 : Fin 2) * 5000 + 1 * r.val = i.val; omega
  | ⟨1, _⟩ => show win1_0.index t (1 : Fin 2) * 128 + 1 * k.val = k.val; omega

/-- Row `r` of the node-feature block at point `t` is row `5000 t + r` of the array. -/
theorem selfBlk_at (c : Dev nD) (t : Fin cfg1.N) (r : Fin 5000) (k : Fin 128) (i : Fin 50000) (hi : i.val = 5000 * t.val + r.val) :
    selfBlk V c t (ix2 r k) = selfArr V c (ix2 i k) := by
  obtain ⟨-, -, e0, e1, -⟩ := idx_facts t
  show V c (Pipeline.arrRef spec1 1) (((cfg1.win 1).blk t).view.emb (ix2 r k)) = V c (Pipeline.arrRef spec1 1) (ix2 i k)
  refine congrArg _ (funext fun a => Fin.ext ?_)
  match a with
  | ⟨0, _⟩ => show win1_1.index t (0 : Fin 2) * 5000 + 1 * r.val = i.val; omega
  | ⟨1, _⟩ => show win1_1.index t (1 : Fin 2) * 128 + 1 * k.val = k.val; omega

/-- The first weight's one block is the whole matrix. -/
theorem wlBlk_at (c : Dev nD) (t : Fin cfg1.N) (k : Fin 128) (o : Fin 128) :
    wlBlk V c t (ix2 k o) = wlArr V c (ix2 k o) := by
  obtain ⟨-, -, -, -, e0, e1, -⟩ := idx_facts t
  show V c (Pipeline.arrRef spec1 2) (((cfg1.win 2).blk t).view.emb (ix2 k o)) = V c (Pipeline.arrRef spec1 2) (ix2 k o)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * o.val = o.val; omega

/-- The second weight's one block is the whole matrix. -/
theorem wrBlk_at (c : Dev nD) (t : Fin cfg1.N) (k : Fin 128) (o : Fin 128) :
    wrBlk V c t (ix2 k o) = wrArr V c (ix2 k o) := by
  obtain ⟨-, -, -, -, -, -, e0, e1, -⟩ := idx_facts t
  show V c (Pipeline.arrRef spec1 3) (((cfg1.win 3).blk t).view.emb (ix2 k o)) = V c (Pipeline.arrRef spec1 3) (ix2 k o)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * o.val = o.val; omega

/-- The bias row's one block is the whole row. -/
theorem biasBlk_at (c : Dev nD) (t : Fin cfg1.N) (z : Fin 1) (o : Fin 128) :
    biasBlk V c t (ix2 z o) = biasArr V c (ix2 z o) := by
  obtain ⟨-, -, -, -, -, -, -, -, e0, e1, -⟩ := idx_facts t
  show V c (Pipeline.arrRef spec1 4) (((cfg1.win 4).blk t).view.emb (ix2 z o)) = V c (Pipeline.arrRef spec1 4) (ix2 z o)
  refine congrArg _ (funext fun a => Fin.ext ?_)
  match a with
  | ⟨0, _⟩ => show win1_4.index t (0 : Fin 2) * 1 + 1 * z.val = z.val; omega
  | ⟨1, _⟩ => show win1_4.index t (1 : Fin 2) * 128 + 1 * o.val = o.val; omega

/-! ## From the blocks to the array -/

/-- The layer at node `i`, feature `o`, spelt out. -/
theorem blockDense128_at (a h : Cert.SageSpec.IxNF → EReal) (wlt wrt : Cert.SageSpec.IxFF → EReal) (b2 : Cert.SageSpec.Ix1F → EReal) (i : Fin 50000) (o : Fin 128) :
    Cert.SageSpec.blockDense128 a h wlt wrt b2 (ix2 i o)
      = max (((∑ k : Fin 128, a (ix2 i k) * wlt (ix2 k o)) + ∑ k : Fin 128, h (ix2 i k) * wrt (ix2 k o)) + b2 (ix2 (0 : Fin 1) o)) 0 := rfl

/-- What grid point `t` writes back is block `t` of the layer's array. -/
theorem flushed_eq (c : Dev nD) (t : Fin cfg1.N) :
    (dat1 (F := Ideal) V c).flushed 5 t
      = ((cfg1.win 5).blk t).view.read (Elt Ideal) (Cert.SageSpec.blockDense128 (aggArr V c) (selfArr V c) (wlArr V c) (wrArr V c) (biasArr V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨r, o, rfl⟩ : ∃ (r : Fin 5000) (o : Fin 128), j = ix2 r o := ⟨j 0, j 1, eq_ix2 j⟩
  have ht : t.val < 10 := lt_of_lt_of_eq t.isLt N_1
  obtain ⟨i, hi⟩ : ∃ i : Fin 50000, i.val = 5000 * t.val + r.val := ⟨⟨5000 * t.val + r.val, by omega⟩, rfl⟩
  obtain ⟨-, -, -, -, -, -, -, -, -, -, e0, e1⟩ := idx_facts t
  have hemb : ((cfg1.win 5).blk t).view.emb (ix2 r o) = (ix2 i o : S50000x128.Idx) := by
    funext a; apply Fin.ext
    match a with
    | ⟨0, _⟩ => show win1_5.index t (0 : Fin 2) * 5000 + 1 * r.val = i.val; omega
    | ⟨1, _⟩ => show win1_5.index t (1 : Fin 2) * 128 + 1 * o.val = o.val; omega
  show k1_pay1 (aggBlk V c t) (selfBlk V c t) (wlBlk V c t) (wrBlk V c t) (biasBlk V c t) (ix2 r o)
    = Cert.SageSpec.blockDense128 (aggArr V c) (selfArr V c) (wlArr V c) (wrArr V c) (biasArr V c) (((cfg1.win 5).blk t).view.emb (ix2 r o))
  rw [hemb, blockDense128_at, pay_at]
  refine congrArg₂ max (congrArg₂ (· + ·) (congrArg₂ (· + ·) (Finset.sum_congr rfl fun k _ => ?_) (Finset.sum_congr rfl fun k _ => ?_)) ?_) rfl
  · rw [aggBlk_at V c t r k i hi, wlBlk_at V c t k o]
  · rw [selfBlk_at V c t r k i hi, wrBlk_at V c t k o]
  · exact biasBlk_at V c t 0 o

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every index of the result array is in some point's block: row `n` is in the block of point `n / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- The result array after the region: the 128-wide clamped layer of the five operand arrays as the region found them. -/
theorem region1_array (c : Dev nD) :
    outArr V c = Cert.SageSpec.blockDense128 (aggArr V c) (selfArr V c) (wlArr V c) (wrArr V c) (biasArr V c) :=
  (dat1 (F := Ideal) V c).arrAt_eq_of_cover 5
    (Cert.SageSpec.blockDense128 (aggArr V c) (selfArr V c) (wlArr V c) (wrArr V c) (biasArr V c))
    (fun t _ => flushed_eq V c t) cover

end Cert.KernelIdeal.Region1

end
-- ==== Proof.Region2.lean ====
/-
  Layer 3's dense step read as one array.

  The row-blocked product visits ten blocks of 5000 rows. At each it forms, for every row `r` of the block and every
  output feature `o`,  a[r,:] · Wl[:,o] + h[r,:] · Wr[:,o] + b[o], from the block's rows of the two
  row-blocked operands, the whole [128, 2] weights and the [1, 2] bias row. Row `r` of block `t` is row `5000 t + r` of the
  array, the blocks tile the [50000, 2] result with no gap, so the result array is that function of the five operand
  arrays at every index.
-/
import proofs.«400809_j43980465111675_1_alg».proof.Proof.Gen.KernelIdeal.Frame
import proofs.«400809_j43980465111675_1_alg».proof.Proof.Spec
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product at an index -/

-- The product's index maps, axis by axis: a left operand's entry sits at the output's row and the contracted
-- position, a right operand's at the contracted position and the output's column.

theorem lhs_row (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_contr (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_contr (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_col (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- A product into a zero accumulator, at row `r` and column `o`: the sum over the 128 contracted positions. -/
theorem matmul_at {φ₁ φ₂ : FTy} (x : FVec Ideal S5000x128 φ₁) (w : FVec Ideal S128x2 φ₂) (r : Fin 5000) (o : Fin 2) :
    FloatOps.matmul dot_S5000x128_S128x2_S5000x2_1_0_0_1_n_n none x w (constant (F := Ideal) S5000x2 .f32 0x00000000#32) (ix2 r o)
      = ∑ k : Fin 128, x (ix2 r k) * w (ix2 k o) := by
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 r o) ((ValueIdx.contrEquiv1 dot_S5000x128_S128x2_S5000x2_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x2_S5000x2_1_0_0_1_n_n.rhsIdx (ix2 r o) ((ValueIdx.contrEquiv1 dot_S5000x128_S128x2_S5000x2_1_0_0_1_n_n 128 rfl rfl).symm k) = ix2 k o := funext fun a => Fin.ext (by
    match a with
    | ⟨0, _⟩ => exact (rhs_contr _ _).trans hk
    | ⟨1, _⟩ => exact rhs_col _ _)
  rw [el, er]

/-! ## The body's stored value at an index -/

/-- The bias row spread down the rows reads the row's entry of the column. -/
theorem bias_at (b : Vec Ideal S1x2 .f32) (r : Fin 5000) (o : Fin 2) :
    broadcastTo S5000x2 b broadcasts_S1x2_S5000x2 (ix2 r o) = b (ix2 (0 : Fin 1) o) :=
  broadcastTo_apply b broadcasts_S1x2_S5000x2 (ix2 r o) (ix2 (0 : Fin 1) o) (fun a => match a with
    | ⟨0, _⟩ => rfl
    | ⟨1, _⟩ => rfl)

/-- Row `r`, column `o` of what the body stores: the two products summed, the bias added. -/
theorem pay_at (x0 x1 : Vec Ideal S5000x128 .f32) (x2 x3 : Vec Ideal S128x2 .f32) (x4 : Vec Ideal S1x2 .f32) (r : Fin 5000) (o : Fin 2) :
    k2_pay1 x0 x1 x2 x3 x4 (ix2 r o)
      = ((∑ k : Fin 128, x0 (ix2 r k) * x2 (ix2 k o)) + ∑ k : Fin 128, x1 (ix2 r k) * x3 (ix2 k o)) + x4 (ix2 (0 : Fin 1) o) := by
  unfold k2_pay1
  simp only [shapeCast_self]
  rw [addf_apply, addf_apply, bias_at]
  simp only [matmul]
  rw [matmul_at, matmul_at]
  rfl

/-! ## The windows' blocks as parts of the arrays -/

variable (V : (c : Dev nD) → (b : Ref sig .tc) → Buf (Elt Ideal) ((c : Thread nD τ).loc b))

/-- The five operand arrays as the region finds them, and the result array after it, at their literal shapes. -/
abbrev aggArr (c : Dev nD) : Vec Ideal S50000x128 .f32 := V c (Pipeline.arrRef spec2 0)
abbrev selfArr (c : Dev nD) : Vec Ideal S50000x128 .f32 := V c (Pipeline.arrRef spec2 1)
abbrev wlArr (c : Dev nD) : Vec Ideal S128x2 .f32 := V c (Pipeline.arrRef spec2 2)
abbrev wrArr (c : Dev nD) : Vec Ideal S128x2 .f32 := V c (Pipeline.arrRef spec2 3)
abbrev biasArr (c : Dev nD) : Vec Ideal S1x2 .f32 := V c (Pipeline.arrRef spec2 4)
abbrev outArr (c : Dev nD) : Vec Ideal S50000x2 .f32 := (dat2 (F := Ideal) V c).arrAt 5 cfg2.N

/-- The blocks of the five operand windows at a grid point, at their literal shapes. -/
abbrev aggBlk (c : Dev nD) (t : Fin cfg2.N) : Vec Ideal S5000x128 .f32 := iblk2 V c 0 t
abbrev selfBlk (c : Dev nD) (t : Fin cfg2.N) : Vec Ideal S5000x128 .f32 := iblk2 V c 1 t
abbrev wlBlk (c : Dev nD) (t : Fin cfg2.N) : Vec Ideal S128x2 .f32 := iblk2 V c 2 t
abbrev wrBlk (c : Dev nD) (t : Fin cfg2.N) : Vec Ideal S128x2 .f32 := iblk2 V c 3 t
abbrev biasBlk (c : Dev nD) (t : Fin cfg2.N) : Vec Ideal S1x2 .f32 := iblk2 V c 4 t

theorem hz : (![0, 0] : Fin 2 → Nat) = fun _ => 0 := funext fun a => by fin_cases a <;> rfl

/-- The block indices over the grid: the two row-blocked operands and the result move down the rows with the grid
    point, the weights and the bias stay at the one block they have. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of the aggregated-feature block at point `t` is row `5000 t + r` of the array. -/
theorem aggBlk_at (c : Dev nD) (t : Fin cfg2.N) (r : Fin 5000) (k : Fin 128) (i : Fin 50000) (hi : i.val = 5000 * t.val + r.val) :
    aggBlk V c t (ix2 r k) = aggArr V c (ix2 i k) := by
  obtain ⟨e0, e1, -⟩ := idx_facts t
  show V c (Pipeline.arrRef spec2 0) (((cfg2.win 0).blk t).view.emb (ix2 r k)) = V c (Pipeline.arrRef spec2 0) (ix2 i k)
  refine congrArg _ (funext fun a => Fin.ext ?_)
  match a with
  | ⟨0, _⟩ => show win2_0.index t (0 : Fin 2) * 5000 + 1 * r.val = i.val; omega
  | ⟨1, _⟩ => show win2_0.index t (1 : Fin 2) * 128 + 1 * k.val = k.val; omega

/-- Row `r` of the node-feature block at point `t` is row `5000 t + r` of the array. -/
theorem selfBlk_at (c : Dev nD) (t : Fin cfg2.N) (r : Fin 5000) (k : Fin 128) (i : Fin 50000) (hi : i.val = 5000 * t.val + r.val) :
    selfBlk V c t (ix2 r k) = selfArr V c (ix2 i k) := by
  obtain ⟨-, -, e0, e1, -⟩ := idx_facts t
  show V c (Pipeline.arrRef spec2 1) (((cfg2.win 1).blk t).view.emb (ix2 r k)) = V c (Pipeline.arrRef spec2 1) (ix2 i k)
  refine congrArg _ (funext fun a => Fin.ext ?_)
  match a with
  | ⟨0, _⟩ => show win2_1.index t (0 : Fin 2) * 5000 + 1 * r.val = i.val; omega
  | ⟨1, _⟩ => show win2_1.index t (1 : Fin 2) * 128 + 1 * k.val = k.val; omega

/-- The first weight's one block is the whole matrix. -/
theorem wlBlk_at (c : Dev nD) (t : Fin cfg2.N) (k : Fin 128) (o : Fin 2) :
    wlBlk V c t (ix2 k o) = wlArr V c (ix2 k o) := by
  obtain ⟨-, -, -, -, e0, e1, -⟩ := idx_facts t
  show V c (Pipeline.arrRef spec2 2) (((cfg2.win 2).blk t).view.emb (ix2 k o)) = V c (Pipeline.arrRef spec2 2) (ix2 k o)
  refine congrArg _ (funext fun a => Fin.ext ?_)
  match a with
  | ⟨0, _⟩ => show win2_2.index t (0 : Fin 2) * 128 + 1 * k.val = k.val; omega
  | ⟨1, _⟩ => show win2_2.index t (1 : Fin 2) * 2 + 1 * o.val = o.val; omega

/-- The second weight's one block is the whole matrix. -/
theorem wrBlk_at (c : Dev nD) (t : Fin cfg2.N) (k : Fin 128) (o : Fin 2) :
    wrBlk V c t (ix2 k o) = wrArr V c (ix2 k o) := by
  obtain ⟨-, -, -, -, -, -, e0, e1, -⟩ := idx_facts t
  show V c (Pipeline.arrRef spec2 3) (((cfg2.win 3).blk t).view.emb (ix2 k o)) = V c (Pipeline.arrRef spec2 3) (ix2 k o)
  refine congrArg _ (funext fun a => Fin.ext ?_)
  match a with
  | ⟨0, _⟩ => show win2_3.index t (0 : Fin 2) * 128 + 1 * k.val = k.val; omega
  | ⟨1, _⟩ => show win2_3.index t (1 : Fin 2) * 2 + 1 * o.val = o.val; omega

/-- The bias row's one block is the whole row. -/
theorem biasBlk_at (c : Dev nD) (t : Fin cfg2.N) (z : Fin 1) (o : Fin 2) :
    biasBlk V c t (ix2 z o) = biasArr V c (ix2 z o) := by
  obtain ⟨-, -, -, -, -, -, -, -, e0, e1, -⟩ := idx_facts t
  show V c (Pipeline.arrRef spec2 4) (((cfg2.win 4).blk t).view.emb (ix2 z o)) = V c (Pipeline.arrRef spec2 4) (ix2 z o)
  refine congrArg _ (funext fun a => Fin.ext ?_)
  match a with
  | ⟨0, _⟩ => show win2_4.index t (0 : Fin 2) * 1 + 1 * z.val = z.val; omega
  | ⟨1, _⟩ => show win2_4.index t (1 : Fin 2) * 2 + 1 * o.val = o.val; omega

/-! ## From the blocks to the array -/

/-- The layer at node `i`, feature `o`, spelt out. -/
theorem blockDense2_at (a h : Cert.SageSpec.IxNF → EReal) (wlt wrt : Cert.SageSpec.IxF2 → EReal) (b2 : Cert.SageSpec.Ix12 → EReal) (i : Fin 50000) (o : Fin 2) :
    Cert.SageSpec.blockDense2 a h wlt wrt b2 (ix2 i o)
      = ((∑ k : Fin 128, a (ix2 i k) * wlt (ix2 k o)) + ∑ k : Fin 128, h (ix2 i k) * wrt (ix2 k o)) + b2 (ix2 (0 : Fin 1) o) := rfl

/-- What grid point `t` writes back is block `t` of the layer's array. -/
theorem flushed_eq (c : Dev nD) (t : Fin cfg2.N) :
    (dat2 (F := Ideal) V c).flushed 5 t
      = ((cfg2.win 5).blk t).view.read (Elt Ideal) (Cert.SageSpec.blockDense2 (aggArr V c) (selfArr V c) (wlArr V c) (wrArr V c) (biasArr V c)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x2) hz, View.ld_unit_zero (S := S1x2) hz]
  funext j
  obtain ⟨r, o, rfl⟩ : ∃ (r : Fin 5000) (o : Fin 2), j = ix2 r o := ⟨j 0, j 1, eq_ix2 j⟩
  have ht : t.val < 10 := lt_of_lt_of_eq t.isLt N_2
  obtain ⟨i, hi⟩ : ∃ i : Fin 50000, i.val = 5000 * t.val + r.val := ⟨⟨5000 * t.val + r.val, by omega⟩, rfl⟩
  obtain ⟨-, -, -, -, -, -, -, -, -, -, e0, e1⟩ := idx_facts t
  have hemb : ((cfg2.win 5).blk t).view.emb (ix2 r o) = (ix2 i o : S50000x2.Idx) := by
    funext a; apply Fin.ext
    match a with
    | ⟨0, _⟩ => show win2_5.index t (0 : Fin 2) * 5000 + 1 * r.val = i.val; omega
    | ⟨1, _⟩ => show win2_5.index t (1 : Fin 2) * 2 + 1 * o.val = o.val; omega
  show k2_pay1 (aggBlk V c t) (selfBlk V c t) (wlBlk V c t) (wrBlk V c t) (biasBlk V c t) (ix2 r o)
    = Cert.SageSpec.blockDense2 (aggArr V c) (selfArr V c) (wlArr V c) (wrArr V c) (biasArr V c) (((cfg2.win 5).blk t).view.emb (ix2 r o))
  rw [hemb, blockDense2_at, pay_at]
  refine congrArg₂ (· + ·) (congrArg₂ (· + ·) (Finset.sum_congr rfl fun k _ => ?_) (Finset.sum_congr rfl fun k _ => ?_)) ?_
  · rw [aggBlk_at V c t r k i hi, wlBlk_at V c t k o]
  · rw [selfBlk_at V c t r k i hi, wrBlk_at V c t k o]
  · exact biasBlk_at V c t 0 o

/-- An index of the result array is in point `t`'s block iff each coordinate is in the block's range on its axis. -/
theorem mem_blk (t : Fin cfg2.N) (i : S50000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v39).slice (win2_5.rect t)).set ↔ _
  rw [View.set_slice_whole, Rect.mem_set_unit]
  exact Iff.rfl

/-- Every index of the result array is in some point's block: row `n` is in the block of point `n / 5000`. -/
theorem cover (i : S50000x2.Idx) : ∃ t : Fin cfg2.N, (cfg2.win 5).flush t = true ∧ i ∈ ((cfg2.win 5).blk t).view.set := by
  have hi0 : (i 0).val < 50000 := (i 0).isLt
  have hi1 : (i 1).val < 2 := (i 1).isLt
  have hN : cfg2.N = 10 := N_2
  refine ⟨⟨(i 0).val / 5000, by rw [hN]; omega⟩, flush2_5 _, ?_⟩
  rw [mem_blk]
  obtain ⟨-, -, -, -, -, -, -, -, -, -, e0, e1⟩ := idx_facts ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, _⟩ (1 : Fin 2) * 2 ≤ (i 1).val ∧ (i 1).val < win2_5.index ⟨(i 0).val / 5000, _⟩ (1 : Fin 2) * 2 + 2
    rw [e1]; omega

/-- The result array after the region: the 2-wide last layer of the five operand arrays as the region found them. -/
theorem region2_array (c : Dev nD) :
    outArr V c = Cert.SageSpec.blockDense2 (aggArr V c) (selfArr V c) (wlArr V c) (wrArr V c) (biasArr V c) :=
  (dat2 (F := Ideal) V c).arrAt_eq_of_cover 5
    (Cert.SageSpec.blockDense2 (aggArr V c) (selfArr V c) (wlArr V c) (wrArr V c) (biasArr V c))
    (fun t _ => flushed_eq V c t) cover

end Cert.KernelIdeal.Region2

end
-- ==== Proof.KernelDense.lean ====
/-
  One dense step of the graph layer, over the operands as the row-blocked product receives them: each weight matrix
  transposed to [128, O] and the bias reshaped to a [1, O] row. Read index by index these are the stored weights and
  bias again: a transposed matrix at (k, o) is the matrix at (o, k), and the row at (0, o) is the bias at o. So the
  product over the transposed operands is the layer over the stored ones, term by term and in the same order.
-/
import proofs.«400809_j43980465111675_1_alg».proof.Proof.Gen.KernelIdeal
import proofs.«400809_j43980465111675_1_alg».proof.Proof.Spec
import Idealize.ShloMosaic.Lib.Pipeline.Value

noncomputable section

namespace Cert.KernelIdeal.Dense

open Cert.KernelIdeal Cert.KernelIdeal.Facts₀ Cert.KernelIdeal.Facts Idealize.ShloMosaic
open Idealize.ShloMosaic.ValueIdx

/-! ## The layout operations at an index -/

/-- A 128 × 128 matrix with its two axes exchanged, at (k, o), is the matrix at (o, k). -/
theorem transpose128_at (W : FVec Ideal S128x128 .f32) (k o : Fin 128) :
    transpose S128x128 [1, 0] W transposes_S128x128_S128x128_1_0 (ix2 k o) = W (ix2 o k) := by
  refine transpose_apply [1, 0] W transposes_S128x128_S128x128_1_0 (ix2 k o) (ix2 o k) fun b => ?_
  match b with
  | ⟨0, _⟩ => rfl
  | ⟨1, _⟩ => rfl

/-- A 2 × 128 matrix with its two axes exchanged, at (k, o), is the matrix at (o, k). -/
theorem transpose2_at (W : FVec Ideal S2x128 .f32) (k : Fin 128) (o : Fin 2) :
    transpose S128x2 [1, 0] W transposes_S2x128_S128x2_1_0 (ix2 k o) = W (ix2 o k) := by
  refine transpose_apply [1, 0] W transposes_S2x128_S128x2_1_0 (ix2 k o) (ix2 o k) fun b => ?_
  match b with
  | ⟨0, _⟩ => rfl
  | ⟨1, _⟩ => rfl

/-- A length-128 vector laid out as a single row, at (0, o), is the vector at o: both sit at row-major position o. -/
theorem row128_at (b : FVec Ideal S128 .f32) (o : Fin 128) :
    shapeCast S1x128 b shapeCasts_S128_S1x128 (ix2 (0 : Fin 1) o) = b (ix1 o) := by
  refine shapeCast_apply b shapeCasts_S128_S1x128 (ix2 (0 : Fin 1) o) (ix1 o) ?_
  rw [Shape.rowMajor_val_one, Shape.rowMajor_val_two]
  show o.val = 0 * 128 + o.val
  omega

/-- A length-2 vector laid out as a single row, at (0, o), is the vector at o. -/
theorem row2_at (b : FVec Ideal S2 .f32) (o : Fin 2) :
    shapeCast S1x2 b shapeCasts_S2_S1x2 (ix2 (0 : Fin 1) o) = b (ix1 o) := by
  refine shapeCast_apply b shapeCasts_S2_S1x2 (ix2 (0 : Fin 1) o) (ix1 o) ?_
  rw [Shape.rowMajor_val_one, Shape.rowMajor_val_two]
  show o.val = 0 * 2 + o.val
  omega

/-! ## A row against a column of the transposed matrix is the row against a row of the stored matrix -/

/-- ∑ₖ x(i,k) · Wᵀ(k,o) = ∑ₖ x(i,k) · W(o,k), term by term, for a 128 × 128 matrix. -/
theorem sum_transpose128 (x : FVec Ideal S50000x128 .f32) (W : FVec Ideal S128x128 .f32) (i : Fin 50000) (o : Fin 128) :
    (∑ k : Fin 128, x (ix2 i k) * transpose S128x128 [1, 0] W transposes_S128x128_S128x128_1_0 (ix2 k o))
      = ∑ k : Fin 128, x (ix2 i k) * W (ix2 o k) :=
  Finset.sum_congr rfl fun k _ => by rw [transpose128_at]

/-- ∑ₖ x(i,k) · Wᵀ(k,o) = ∑ₖ x(i,k) · W(o,k), term by term, for a 2 × 128 matrix. -/
theorem sum_transpose2 (x : FVec Ideal S50000x128 .f32) (W : FVec Ideal S2x128 .f32) (i : Fin 50000) (o : Fin 2) :
    (∑ k : Fin 128, x (ix2 i k) * transpose S128x2 [1, 0] W transposes_S2x128_S128x2_1_0 (ix2 k o))
      = ∑ k : Fin 128, x (ix2 i k) * W (ix2 o k) :=
  Finset.sum_congr rfl fun k _ => by rw [transpose2_at]

/-! ## The dense step over the transposed operands is the dense step over the stored ones -/

/-- A 128-wide layer: every term a(i,k) · Wᵀ(k,o) is a(i,k) · W(o,k), and the bias row at (0,o) is b(o). -/
theorem block128_eq (a h : FVec Ideal S50000x128 .f32) (Wl Wr : FVec Ideal S128x128 .f32) (b : FVec Ideal S128 .f32) :
    Cert.SageSpec.blockDense128 a h (transpose S128x128 [1, 0] Wl transposes_S128x128_S128x128_1_0)
      (transpose S128x128 [1, 0] Wr transposes_S128x128_S128x128_1_0) (shapeCast S1x128 b shapeCasts_S128_S1x128)
      = Cert.SageSpec.sage128 a h Wl Wr b := by
  funext j
  -- the index as its two coordinates: a node i and an output feature o
  obtain ⟨i, o, rfl⟩ : ∃ (i : Fin 50000) (o : Fin 128), j = ix2 i o := ⟨j 0, j 1, eq_ix2 j⟩
  show max (((∑ k : Fin 128, a (ix2 i k) * transpose S128x128 [1, 0] Wl transposes_S128x128_S128x128_1_0 (ix2 k o))
        + ∑ k : Fin 128, h (ix2 i k) * transpose S128x128 [1, 0] Wr transposes_S128x128_S128x128_1_0 (ix2 k o))
      + shapeCast S1x128 b shapeCasts_S128_S1x128 (ix2 (0 : Fin 1) o)) 0
    = max (((∑ k : Fin 128, a (ix2 i k) * Wl (ix2 o k)) + ∑ k : Fin 128, h (ix2 i k) * Wr (ix2 o k)) + b (ix1 o)) 0
  rw [sum_transpose128, sum_transpose128, row128_at]

/-- The 2-wide last layer, the same way. -/
theorem block2_eq (a h : FVec Ideal S50000x128 .f32) (Wl Wr : FVec Ideal S2x128 .f32) (b : FVec Ideal S2 .f32) :
    Cert.SageSpec.blockDense2 a h (transpose S128x2 [1, 0] Wl transposes_S2x128_S128x2_1_0)
      (transpose S128x2 [1, 0] Wr transposes_S2x128_S128x2_1_0) (shapeCast S1x2 b shapeCasts_S2_S1x2)
      = Cert.SageSpec.sage2 a h Wl Wr b := by
  funext j
  obtain ⟨i, o, rfl⟩ : ∃ (i : Fin 50000) (o : Fin 2), j = ix2 i o := ⟨j 0, j 1, eq_ix2 j⟩
  show ((∑ k : Fin 128, a (ix2 i k) * transpose S128x2 [1, 0] Wl transposes_S2x128_S128x2_1_0 (ix2 k o))
        + ∑ k : Fin 128, h (ix2 i k) * transpose S128x2 [1, 0] Wr transposes_S2x128_S128x2_1_0 (ix2 k o))
      + shapeCast S1x2 b shapeCasts_S2_S1x2 (ix2 (0 : Fin 1) o)
    = ((∑ k : Fin 128, a (ix2 i k) * Wl (ix2 o k)) + ∑ k : Fin 128, h (ix2 i k) * Wr (ix2 o k)) + b (ix1 o)
  rw [sum_transpose2, sum_transpose2, row2_at]

end Cert.KernelIdeal.Dense

end
-- ==== Proof.RefLayers.lean ====
/-
  The reference program's result, read as three layers. Each layer takes the node features `h`, averages the
  source rows over every node's incoming edges (`meanAgg`), and applies
      meanAgg h · Wlᵀ  +  b  +  h · Wrᵀ ,
  the first two layers clamped below at zero. The definitions compose the host operations exactly as the
  reference's run applies them, so the run's result term is these three layers by unfolding.
-/
import proofs.«400809_j43980465111675_1_alg».proof.Proof.Gen.ReferenceIdeal.Read

noncomputable section

namespace Cert.ReferenceIdeal.Layers

open Cert.ReferenceIdeal Cert.ReferenceIdeal.Gen Cert.ReferenceIdeal.Value Idealize.ShloMosaic Idealize.ShloMosaic.TcCoe Idealize.SL.Sem

variable {F : FTy → Type} [FloatOps F]

/-- Row 0 of the edge list as a vector: each edge's source node. -/
def srcRow (e : IVec S2x600000 32) : IVec S600000 32 :=
  shapeCast _ (extractStridedSlice S1x600000 ![0, 0] e slices_S2x600000_S1x600000_0_0) shapeCasts_S1x600000_S600000

/-- Row 1 of the edge list as a vector: each edge's target node. -/
def dstRow (e : IVec S2x600000 32) : IVec S600000 32 :=
  shapeCast _ (extractStridedSlice S1x600000 ![1, 0] e slices_S2x600000_S1x600000_1_0) shapeCasts_S1x600000_S600000

/-- The sources, a negative one wrapped once by the node count, as a column of start indices. -/
def srcIdx (e : IVec S2x600000 32) : IVec S600000x1 32 :=
  broadcastInDim S600000x1 ![0] bcast_S600000_S600000x1_0
    (select (cmpi .slt (srcRow e) (broadcastInDim S600000 ![] bcast_S_S600000 (constantI S_ 32 0#32)))
      (addi (srcRow e) (broadcastInDim S600000 ![] bcast_S_S600000 (constantI S_ 32 50000#32))) (srcRow e))

/-- The targets as a column of scatter indices. -/
def dstIdx (e : IVec S2x600000 32) : IVec S600000x1 32 :=
  broadcastInDim S600000x1 ![0] bcast_S600000_S600000x1_0 (dstRow e)

/-- The all-zero [50000, 128] array: where a sum over edges starts, and the floor of the clamp. -/
def zerosNF : FVec F S50000x128 .f32 :=
  broadcastInDim S50000x128 ![] bcast_S_S50000x128 (constant S_ .f32 0x00000000#32)

/-- Per node, the number of incoming edges, at least one, repeated along the 128 features. -/
def degree (e : IVec S2x600000 32) : FVec F S50000x128 .f32 :=
  broadcastInDim S50000x128 ![0, 1] bcast_S50000x1_S50000x128_0_1
    (maximumf
      (Host.scatterAdd scatter_S50000x1_S600000x1_S600000x1_1_0_0_1 (broadcastInDim S50000x1 ![] bcast_S_S50000x1 (constant S_ .f32 0x00000000#32))
        (dstIdx e) (broadcastInDim S600000x1 ![] bcast_S_S600000x1 (constant S_ .f32 0x3F800000#32)))
      (broadcastInDim S50000x1 ![] bcast_S_S50000x1 (constant S_ .f32 0x3F800000#32)))

/-- The mean of the source rows of `h` over each node's incoming edges. -/
def meanAgg (e : IVec S2x600000 32) (h : FVec F S50000x128 .f32) : FVec F S50000x128 .f32 :=
  Host.divf
    (Host.scatterAdd scatter_S50000x128_S600000x1_S600000x128_1_0_0_1 zerosNF (dstIdx e)
      (Host.gather gather_S50000x128_S600000x1_S600000x128_1_0_n_n_0_1_1128 h (srcIdx e)))
    (degree e)

/-- `a · Wlᵀ + b + h · Wrᵀ` for a 128-wide layer. -/
def lin128 (a h : FVec F S50000x128 .f32) (Wl Wr : FVec F S128x128 .f32) (b : FVec F S128 .f32) : FVec F S50000x128 .f32 :=
  addf
    (addf (Host.dotGeneral dot_S50000x128_S128x128_S50000x128_1_0_0_1_n_n none a (transpose S128x128 [1, 0] Wl transposes_S128x128_S128x128_1_0))
      (broadcastInDim S50000x128 ![0, 1] bcast_S1x128_S50000x128_0_1 (broadcastInDim S1x128 ![1] bcast_S128_S1x128_1 b)))
    (Host.dotGeneral dot_S50000x128_S128x128_S50000x128_1_0_0_1_n_n none h (transpose S128x128 [1, 0] Wr transposes_S128x128_S128x128_1_0))

/-- The clamp below at zero. -/
def relu (x : FVec F S50000x128 .f32) : FVec F S50000x128 .f32 := maximumf x zerosNF

/-- `a · Wlᵀ + b + h · Wrᵀ` for the 2-wide last layer. -/
def lin2 (a h : FVec F S50000x128 .f32) (Wl Wr : FVec F S2x128 .f32) (b : FVec F S2 .f32) : FVec F S50000x2 .f32 :=
  addf
    (addf (Host.dotGeneral dot_S50000x128_S128x2_S50000x2_1_0_0_1_n_n none a (transpose S128x2 [1, 0] Wl transposes_S2x128_S128x2_1_0))
      (broadcastInDim S50000x2 ![0, 1] bcast_S1x2_S50000x2_0_1 (broadcastInDim S1x2 ![1] bcast_S2_S1x2_1 b)))
    (Host.dotGeneral dot_S50000x128_S128x2_S50000x2_1_0_0_1_n_n none h (transpose S128x2 [1, 0] Wr transposes_S2x128_S128x2_1_0))

/-- One clamped 128-wide layer on features `h`. -/
def layer128 (e : IVec S2x600000 32) (h : FVec F S50000x128 .f32) (Wl Wr : FVec F S128x128 .f32) (b : FVec F S128 .f32) : FVec F S50000x128 .f32 :=
  relu (lin128 (meanAgg e h) h Wl Wr b)

/-- The three layers on the argument arrays. -/
def net (x : FVec F S50000x128 .f32) (e : IVec S2x600000 32) (Wl0 Wr0 : FVec F S128x128 .f32) (b0 : FVec F S128 .f32)
    (Wl1 Wr1 : FVec F S128x128 .f32) (b1 : FVec F S128 .f32) (Wl2 Wr2 : FVec F S2x128 .f32) (b2 : FVec F S2 .f32) : FVec F S50000x2 .f32 :=
  lin2 (meanAgg e (layer128 e (layer128 e x Wl0 Wr0 b0) Wl1 Wr1 b1)) (layer128 e (layer128 e x Wl0 Wr0 b0) Wl1 Wr1 b1) Wl2 Wr2 b2

set_option maxRecDepth 8192 in
/-- The run's result term is the three layers of the argument arrays. -/
theorem res_eq_net (m : (ℓ : Loc nD τ sig) → Buf (Elt F) ℓ) (c : Dev nD) :
    res_main_v83 m c = net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold res_main_v83 net layer128 relu lin2 lin128 meanAgg degree zerosNF dstIdx srcIdx dstRow srcRow
  rfl

end Cert.ReferenceIdeal.Layers

end
-- ==== Proof.RefDense.lean ====
/-
  One dense step of the graph layer as the reference composes it,
      a · Wlᵀ  +  b  +  h · Wrᵀ ,
  read index by index over the extended reals. A product against a transposed weight matrix, at node i and output
  feature o, is the sum over k of the row entry (i, k) times the stored weight (o, k); the bias, repeated down the rows
  through a one-row array, is b(o) at every node; the clamp's floor is the constant 0. The reference adds the bias
  between the two products and the specification after them: one exchange of the last two terms of a three-term sum
  joins the two, and it needs no finiteness.
-/
import proofs.«400809_j43980465111675_1_alg».proof.Proof.RefLayers
import proofs.«400809_j43980465111675_1_alg».proof.Proof.Spec

noncomputable section

namespace Cert.ReferenceIdeal.Dense

open Cert.ReferenceIdeal Cert.ReferenceIdeal.Gen Idealize.ShloMosaic
open Idealize.ShloMosaic.ValueIdx

/-! ## A contraction over the shared axis of length 128, at an index -/

/-- A [50000, 128] array against a [128, 128] matrix: at (i, o) the sum over k of x(i, k) · M(k, o). The contraction
    index has one axis of extent 128, so it is re-indexed by k : Fin 128; the left operand is then read at row i,
    column k and the right at row k, column o, axis by axis. -/
theorem dot128_at (x : FVec Ideal S50000x128 .f32) (M : FVec Ideal S128x128 .f32) (i : Fin 50000) (o : Fin 128) :
    Host.dotGeneral (F := Ideal) dot_S50000x128_S128x128_S50000x128_1_0_0_1_n_n none x M (ix2 i o) = ∑ k : Fin 128, x (ix2 i k) * M (ix2 k o) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 i o) ((contrEquiv1 dot_S50000x128_S128x128_S50000x128_1_0_0_1_n_n 128 rfl rfl).symm k) = ix2 i k := funext fun a => Fin.ext (by
    match a with
    | ⟨0, _⟩ => exact Read.lhs_main_v23_0 _ _
    | ⟨1, _⟩ => exact (Read.lhs_main_v23_1 _ _).trans hk)
  have er : dot_S50000x128_S128x128_S50000x128_1_0_0_1_n_n.rhsIdx (ix2 i o) ((contrEquiv1 dot_S50000x128_S128x128_S50000x128_1_0_0_1_n_n 128 rfl rfl).symm k) = ix2 k o := funext fun a => Fin.ext (by
    match a with
    | ⟨0, _⟩ => exact (Read.rhs_main_v23_0 _ _).trans hk
    | ⟨1, _⟩ => exact Read.rhs_main_v23_1 _ _)
  rw [el, er]

/-- A [50000, 128] array against a [128, 2] matrix: at (i, o) the sum over k of x(i, k) · M(k, o). -/
theorem dot2_at (x : FVec Ideal S50000x128 .f32) (M : FVec Ideal S128x2 .f32) (i : Fin 50000) (o : Fin 2) :
    Host.dotGeneral (F := Ideal) dot_S50000x128_S128x2_S50000x2_1_0_0_1_n_n none x M (ix2 i o) = ∑ k : Fin 128, x (ix2 i k) * M (ix2 k o) := by
  simp only [Host.dotGeneral]
  rw [Ideal.dotGeneral_apply, ← Equiv.sum_comp (contrEquiv1 dot_S50000x128_S128x2_S50000x2_1_0_0_1_n_n 128 rfl rfl).symm]
  refine Finset.sum_congr rfl fun k _ => ?_
  have hk := contrEquiv1_symm_val dot_S50000x128_S128x2_S50000x2_1_0_0_1_n_n 128 rfl rfl k
  have el : dot_S50000x128_S128x2_S50000x2_1_0_0_1_n_n.lhsIdx (ix2 i o) ((contrEquiv1 dot_S50000x128_S128x2_S50000x2_1_0_0_1_n_n 128 rfl rfl).symm k) = ix2 i k := funext fun a => Fin.ext (by
    match a with
    | ⟨0, _⟩ => exact Read.lhs_main_v77_0 _ _
    | ⟨1, _⟩ => exact (Read.lhs_main_v77_1 _ _).trans hk)
  have er : dot_S50000x128_S128x2_S50000x2_1_0_0_1_n_n.rhsIdx (ix2 i o) ((contrEquiv1 dot_S50000x128_S128x2_S50000x2_1_0_0_1_n_n 128 rfl rfl).symm k) = ix2 k o := funext fun a => Fin.ext (by
    match a with
    | ⟨0, _⟩ => exact (Read.rhs_main_v77_0 _ _).trans hk
    | ⟨1, _⟩ => exact Read.rhs_main_v77_1 _ _)
  rw [el, er]

/-! ## The weights' transposition at an index -/

/-- A 128 × 128 matrix with its two axes exchanged, at (k, o), is the matrix at (o, k). -/
theorem transpose128_at (W : FVec Ideal S128x128 .f32) (k o : Fin 128) :
    transpose S128x128 [1, 0] W transposes_S128x128_S128x128_1_0 (ix2 k o) = W (ix2 o k) := by
  refine transpose_apply [1, 0] W transposes_S128x128_S128x128_1_0 (ix2 k o) (ix2 o k) fun b => ?_
  match b with
  | ⟨0, _⟩ => rfl
  | ⟨1, _⟩ => rfl

/-- A 2 × 128 matrix with its two axes exchanged, at (k, o), is the matrix at (o, k). -/
theorem transpose2_at (W : FVec Ideal S2x128 .f32) (k : Fin 128) (o : Fin 2) :
    transpose S128x2 [1, 0] W transposes_S2x128_S128x2_1_0 (ix2 k o) = W (ix2 o k) := by
  refine transpose_apply [1, 0] W transposes_S2x128_S128x2_1_0 (ix2 k o) (ix2 o k) fun b => ?_
  match b with
  | ⟨0, _⟩ => rfl
  | ⟨1, _⟩ => rfl

/-- A row of x against the transposed 128 × 128 weights: ∑ₖ x(i,k) · W(o,k), the factors in that order. -/
theorem dotT128_at (x : FVec Ideal S50000x128 .f32) (W : FVec Ideal S128x128 .f32) (i : Fin 50000) (o : Fin 128) :
    Host.dotGeneral (F := Ideal) dot_S50000x128_S128x128_S50000x128_1_0_0_1_n_n none x (transpose S128x128 [1, 0] W transposes_S128x128_S128x128_1_0) (ix2 i o)
      = ∑ k : Fin 128, x (ix2 i k) * W (ix2 o k) :=
  (dot128_at x _ i o).trans (Finset.sum_congr rfl fun k _ => by rw [transpose128_at])

/-- A row of x against the transposed 2 × 128 weights: ∑ₖ x(i,k) · W(o,k). -/
theorem dotT2_at (x : FVec Ideal S50000x128 .f32) (W : FVec Ideal S2x128 .f32) (i : Fin 50000) (o : Fin 2) :
    Host.dotGeneral (F := Ideal) dot_S50000x128_S128x2_S50000x2_1_0_0_1_n_n none x (transpose S128x2 [1, 0] W transposes_S2x128_S128x2_1_0) (ix2 i o)
      = ∑ k : Fin 128, x (ix2 i k) * W (ix2 o k) :=
  (dot2_at x _ i o).trans (Finset.sum_congr rfl fun k _ => by rw [transpose2_at])

/-! ## The bias repeated down the rows, and the clamp's floor -/

/-- The bias as a one-row array, that row repeated for every node: at (i, o) it is b(o). The row's one axis of extent 1
    is read at 0 whatever the node; the feature axis is read at o both times. -/
theorem biasRows128_at (b : FVec Ideal S128 .f32) (i : Fin 50000) (o : Fin 128) :
    broadcastInDim S50000x128 ![0, 1] bcast_S1x128_S50000x128_0_1 (broadcastInDim S1x128 ![1] bcast_S128_S1x128_1 b) (ix2 i o)
      = b (ix1 o) := by
  refine (broadcastInDim_apply ![0, 1] bcast_S1x128_S50000x128_0_1 (broadcastInDim S1x128 ![1] bcast_S128_S1x128_1 b)
    (ix2 i o) (ix2 (0 : Fin 1) o) fun a => ?_).trans
    (broadcastInDim_apply ![1] bcast_S128_S1x128_1 b (ix2 (0 : Fin 1) o) (ix1 o) fun a => ?_)
  · match a with
    | ⟨0, _⟩ => show 0 = if (1 : Nat) = 1 then 0 else i.val; rw [if_pos rfl]
    | ⟨1, _⟩ => show o.val = if (128 : Nat) = 1 then 0 else o.val; rw [if_neg (by decide)]
  · match a with
    | ⟨0, _⟩ => show o.val = if (128 : Nat) = 1 then 0 else o.val; rw [if_neg (by decide)]

/-- The 2-wide bias the same way: at (i, o) it is b(o). -/
theorem biasRows2_at (b : FVec Ideal S2 .f32) (i : Fin 50000) (o : Fin 2) :
    broadcastInDim S50000x2 ![0, 1] bcast_S1x2_S50000x2_0_1 (broadcastInDim S1x2 ![1] bcast_S2_S1x2_1 b) (ix2 i o)
      = b (ix1 o) := by
  refine (broadcastInDim_apply ![0, 1] bcast_S1x2_S50000x2_0_1 (broadcastInDim S1x2 ![1] bcast_S2_S1x2_1 b)
    (ix2 i o) (ix2 (0 : Fin 1) o) fun a => ?_).trans
    (broadcastInDim_apply ![1] bcast_S2_S1x2_1 b (ix2 (0 : Fin 1) o) (ix1 o) fun a => ?_)
  · match a with
    | ⟨0, _⟩ => show 0 = if (1 : Nat) = 1 then 0 else i.val; rw [if_pos rfl]
    | ⟨1, _⟩ => show o.val = if (2 : Nat) = 1 then 0 else o.val; rw [if_neg (by decide)]
  · match a with
    | ⟨0, _⟩ => show o.val = if (2 : Nat) = 1 then 0 else o.val; rw [if_neg (by decide)]

/-- The all-zero array is the extended real 0 at every index: a scalar constant repeated over both axes, and the
    scalar is the f32 pattern of all zero bits. -/
theorem zerosNF_at (j : S50000x128.Idx) : Layers.zerosNF (F := Ideal) j = 0 := by
  unfold Layers.zerosNF
  refine (broadcastInDim_apply ![] bcast_S_S50000x128 (constant (F := Ideal) S_ .f32 0x00000000#32) j (fun a => a.elim0)
    fun a => a.elim0).trans ?_
  exact Ideal.ofBits_zero_f32

/-! ## The reference's dense step is the specification's -/

/-- A clamped 128-wide layer. At (i, o) the reference computes (∑ₖ a(i,k)·Wl(o,k) + b(o)) + ∑ₖ h(i,k)·Wr(o,k) and clamps
    it at 0; exchanging the last two terms gives the specification's order. -/
theorem relu_lin128_eq (a h : FVec Ideal S50000x128 .f32) (Wl Wr : FVec Ideal S128x128 .f32) (b : FVec Ideal S128 .f32) :
    Layers.relu (Layers.lin128 a h Wl Wr b) = Cert.SageSpec.sage128 a h Wl Wr b := by
  funext j
  -- the index as its two coordinates: a node i and an output feature o
  obtain ⟨i, o, rfl⟩ : ∃ (i : Fin 50000) (o : Fin 128), j = ix2 i o := ⟨j 0, j 1, eq_ix2 j⟩
  show max ((Host.dotGeneral (F := Ideal) dot_S50000x128_S128x128_S50000x128_1_0_0_1_n_n none a (transpose S128x128 [1, 0] Wl transposes_S128x128_S128x128_1_0) (ix2 i o)
        + broadcastInDim S50000x128 ![0, 1] bcast_S1x128_S50000x128_0_1 (broadcastInDim S1x128 ![1] bcast_S128_S1x128_1 b) (ix2 i o))
      + Host.dotGeneral (F := Ideal) dot_S50000x128_S128x128_S50000x128_1_0_0_1_n_n none h (transpose S128x128 [1, 0] Wr transposes_S128x128_S128x128_1_0) (ix2 i o))
      (Layers.zerosNF (F := Ideal) (ix2 i o))
    = max (((∑ k : Fin 128, a (ix2 i k) * Wl (ix2 o k)) + ∑ k : Fin 128, h (ix2 i k) * Wr (ix2 o k)) + b (ix1 o)) 0
  rw [dotT128_at, dotT128_at, biasRows128_at, zerosNF_at, Cert.SageSpec.add_bias_comm]

/-- The 2-wide last layer, with no clamp. -/
theorem lin2_eq (a h : FVec Ideal S50000x128 .f32) (Wl Wr : FVec Ideal S2x128 .f32) (b : FVec Ideal S2 .f32) :
    Layers.lin2 a h Wl Wr b = Cert.SageSpec.sage2 a h Wl Wr b := by
  funext j
  obtain ⟨i, o, rfl⟩ : ∃ (i : Fin 50000) (o : Fin 2), j = ix2 i o := ⟨j 0, j 1, eq_ix2 j⟩
  show (Host.dotGeneral (F := Ideal) dot_S50000x128_S128x2_S50000x2_1_0_0_1_n_n none a (transpose S128x2 [1, 0] Wl transposes_S2x128_S128x2_1_0) (ix2 i o)
        + broadcastInDim S50000x2 ![0, 1] bcast_S1x2_S50000x2_0_1 (broadcastInDim S1x2 ![1] bcast_S2_S1x2_1 b) (ix2 i o))
      + Host.dotGeneral (F := Ideal) dot_S50000x128_S128x2_S50000x2_1_0_0_1_n_n none h (transpose S128x2 [1, 0] Wr transposes_S2x128_S128x2_1_0) (ix2 i o)
    = ((∑ k : Fin 128, a (ix2 i k) * Wl (ix2 o k)) + ∑ k : Fin 128, h (ix2 i k) * Wr (ix2 o k)) + b (ix1 o)
  rw [dotT2_at, dotT2_at, biasRows2_at, Cert.SageSpec.add_bias_comm]

end Cert.ReferenceIdeal.Dense

end
-- ==== Proof.InRange.lean ====
/-
  Under the certificate's precondition every edge's source word lies in [-50000, 50000). Wrapping a negative
  source once by the node count 50000 then lands it in [0, 49999], so the range test applied to the wrapped
  source holds at every edge, the mask that guards the gathered rows is all ones, and the masked gather is
  the gather itself. Everything here is about 32-bit integer words; the array the rows are taken from is arbitrary.
-/
import proofs.«400809_j43980465111675_1_alg».proof.Proof.KernelTerms
import proofs.«400809_j43980465111675_1_alg».proof.Proof.LibMaskedReads
import proofs.«400809_j43980465111675_1_alg».proof.Proof.Gen.Pre_finite_inputs
import proofs.«400809_j43980465111675_1_alg».proof.Pre_finite_inputs
import Idealize.ShloMosaic.Lib.ReduceAll
import Idealize.ShloMosaic.Lib.StableHlo.Predicate
import Idealize.ShloMosaic.Lib.ValueIdx

noncomputable section

namespace Cert.KernelIdeal.InRange

open Cert.KernelIdeal Idealize.ShloMosaic Cert.Lib.MaskedReads

/-! ## Words: a source in [-50000, 50000), wrapped once by 50000, lies in [0, 49999] -/

theorem toInt_neg_count : (4294917296#32 : BitVec 32).toInt = -50000 := by decide
theorem toInt_count : (50000#32 : BitVec 32).toInt = 50000 := by decide
theorem toInt_last : (49999#32 : BitVec 32).toInt = 49999 := by decide
theorem toInt_zero : (0#32 : BitVec 32).toInt = 0 := by decide

/-- With -50000 ≤ s < 50000 (signed), the word s + 50000 if s < 0, else s, is ≥ 0 and ≤ 49999 (signed):
    the sum s + 50000 of a negative s stays inside the signed range, so it is the sum of the signed values. -/
theorem wrap_in_range (s : BitVec 32)
    (hge : IntOp.cmpi .sge s 4294917296#32 = 1#1) (hlt : IntOp.cmpi .slt s 50000#32 = 1#1) :
    IntOp.cmpi .sge (Scalar.select (IntOp.cmpi .slt s 0#32) (IntOp.addi s 50000#32) s) 0#32 = 1#1 ∧
    IntOp.cmpi .sle (Scalar.select (IntOp.cmpi .slt s 0#32) (IntOp.addi s 50000#32) s) 49999#32 = 1#1 := by
  rw [IntOp.cmpi_sge, toInt_neg_count] at hge
  rw [IntOp.cmpi_slt, toInt_count] at hlt
  unfold Scalar.select
  by_cases hneg : IntOp.cmpi .slt s 0#32 = 1#1
  · rw [if_pos (show IntOp.cmpi .slt s 0#32 = 1 from hneg)]
    rw [IntOp.cmpi_slt, toInt_zero] at hneg
    have hadd : (IntOp.addi s 50000#32).toInt = s.toInt + 50000 := by
      unfold IntOp.addi
      rw [BitVec.toInt_add, toInt_count]
      exact Int.bmod_eq_of_le_mul_two (by omega) (by omega)
    rw [IntOp.cmpi_sge, IntOp.cmpi_sle, hadd, toInt_zero, toInt_last]
    omega
  · rw [if_neg (show ¬ IntOp.cmpi .slt s 0#32 = 1 from hneg)]
    rw [IntOp.cmpi_slt, toInt_zero] at hneg
    rw [IntOp.cmpi_sge, IntOp.cmpi_sle, toInt_zero, toInt_last]
    omega

/-! ## The precondition read at an edge -/

/-- The rank-0 shape has one index. -/
theorem idx_S_subsingleton : Subsingleton S_.Idx := ⟨fun a b => funext fun d => d.elim0⟩

attribute [local instance] idx_S_subsingleton

section

variable (x : FVec Ideal S50000x128 .f32) (e : IVec S2x600000 32) (Wl0 Wr0 : FVec Ideal S128x128 .f32)
  (b0 : FVec Ideal S128 .f32) (Wl1 Wr1 : FVec Ideal S128x128 .f32) (b1 : FVec Ideal S128 .f32)
  (Wl2 Wr2 : FVec Ideal S2x128 .f32) (b2 : FVec Ideal S2 .f32)
  (hpre : Cert.Pre_finite_inputs.fn (F := Ideal) x e Wl0 Wr0 b0 Wl1 Wr1 b1 Wl2 Wr2 b2 = fun _ => 1#1)

include hpre

/-- The precondition's last two conjuncts, each an `and` over all edges, read at edge i:
    the source word of edge i is ≥ -50000 and < 50000, signed. -/
theorem src_bounds (i : S600000.Idx) :
    IntOp.cmpi .sge (Layers.srcRow e i) 4294917296#32 = 1#1 ∧ IntOp.cmpi .slt (Layers.srcRow e i) 50000#32 = 1#1 := by
  have h0 := congrFun hpre ValueIdx.ix0
  dsimp only [Cert.Pre_finite_inputs.fn, Cert.Pre_finite_inputs.fn_part1, Cert.Pre_finite_inputs.fn_part2,
    Cert.Pre_finite_inputs.fn_part3] at h0
  change IntOp.andi (IntOp.andi _ _) _ = 1#1 at h0
  rw [IntOp.andi_eq_one, IntOp.andi_eq_one] at h0
  obtain ⟨⟨-, hlo⟩, hhi⟩ := h0
  exact ⟨Host.reduce_andi_all _ _ _ _ _ hlo i, Host.reduce_andi_all _ _ _ _ _ hhi i⟩

/-- The wrapped source of edge i is ≥ 0 and ≤ 49999, signed. -/
theorem wrapped_bounds (i : S600000.Idx) :
    IntOp.cmpi .sge (Layers.wrapped e i) 0#32 = 1#1 ∧ IntOp.cmpi .sle (Layers.wrapped e i) 49999#32 = 1#1 := by
  obtain ⟨hge, hlt⟩ := src_bounds x e Wl0 Wr0 b0 Wl1 Wr1 b1 Wl2 Wr2 b2 hpre i
  exact wrap_in_range (Layers.srcRow e i) hge hlt

/-- The range test is passed at every edge: each of its two comparisons reads the wrapped source of one edge
    against the constants 0 and 49999, and the `and` over the one index coordinate of ones is one. -/
theorem inRange_eq_one (i : S600000.Idx) : Layers.inRange e i = 1#1 := by
  unfold Layers.inRange
  refine reduce_andi_one _ _ _ _ _ rfl (fun k => ?_)
  show IntOp.andi (IntOp.cmpi .sge (Layers.wrapped e _) 0#32) (IntOp.cmpi .sle (Layers.wrapped e _) 49999#32) = 1#1
  rw [IntOp.andi_eq_one]
  exact wrapped_bounds x e Wl0 Wr0 b0 Wl1 Wr1 b1 Wl2 Wr2 b2 hpre _

end

/-! ## The masked gather is the gather -/

/-- At every element the mask bit is the range test of that element's edge, which is one, so the element
    selected is the gathered one. -/
theorem taken_eq_gathered (x : FVec Ideal S50000x128 .f32) (e : IVec S2x600000 32) (Wl0 Wr0 : FVec Ideal S128x128 .f32)
    (b0 : FVec Ideal S128 .f32) (Wl1 Wr1 : FVec Ideal S128x128 .f32) (b1 : FVec Ideal S128 .f32)
    (Wl2 Wr2 : FVec Ideal S2x128 .f32) (b2 : FVec Ideal S2 .f32)
    (hpre : Cert.Pre_finite_inputs.fn (F := Ideal) x e Wl0 Wr0 b0 Wl1 Wr1 b1 Wl2 Wr2 b2 = fun _ => 1#1)
    (h : FVec Ideal S50000x128 .f32) : Layers.taken e h = Layers.gathered e h := by
  funext j
  rw [Layers.taken, ValueIdx.select_apply]
  simp only [broadcastInDim]
  rw [inRange_eq_one x e Wl0 Wr0 b0 Wl1 Wr1 b1 Wl2 Wr2 b2 hpre, ValueIdx.select_one]

end Cert.KernelIdeal.InRange

end
-- ==== Proof.Bridge.lean ====
/-
  The two programs spell the mean aggregation with the same host operations: from the edge list, the sources
  wrapped once by the node count as gather indices, the targets as scatter indices, the rows of `h` gathered,
  summed into their targets from zero and divided by the per-node edge count clamped below at one. Each program
  carries its own copies of the shape facts and of the gather and scatter records; the copies are the same data,
  so the blocked program's mean over the plain gather is the reference's mean aggregation, by unfolding both.
-/
import proofs.«400809_j43980465111675_1_alg».proof.Proof.KernelTerms
import proofs.«400809_j43980465111675_1_alg».proof.Proof.RefLayers

noncomputable section

namespace Cert.SageBridge

open Idealize.ShloMosaic

variable {F : FTy → Type} [FloatOps F]

/-- The mean, over each node's incoming edges, of the gathered source rows of `h`: one array in both spellings. -/
theorem meanOver_gathered_eq (e : IVec Cert.KernelIdeal.S2x600000 32) (h : FVec F Cert.KernelIdeal.S50000x128 .f32) :
    Cert.KernelIdeal.Layers.meanOver e (Cert.KernelIdeal.Layers.gathered e h) = Cert.ReferenceIdeal.Layers.meanAgg e h := by
  unfold Cert.KernelIdeal.Layers.meanOver Cert.KernelIdeal.Layers.gathered Cert.KernelIdeal.Layers.degree Cert.KernelIdeal.Layers.dstIdx
    Cert.KernelIdeal.Layers.srcIdx Cert.KernelIdeal.Layers.wrapped Cert.KernelIdeal.Layers.dstRow Cert.KernelIdeal.Layers.srcRow
    Cert.ReferenceIdeal.Layers.meanAgg Cert.ReferenceIdeal.Layers.degree Cert.ReferenceIdeal.Layers.zerosNF Cert.ReferenceIdeal.Layers.dstIdx
    Cert.ReferenceIdeal.Layers.srcIdx Cert.ReferenceIdeal.Layers.dstRow Cert.ReferenceIdeal.Layers.srcRow
  rfl

end Cert.SageBridge

end
-- ==== Proof.Network.lean ====
/-
  Both programs compute one function of the argument arrays.

  `netSpec` is three layers: with `agg h` the mean of the source rows of `h` over each node's incoming edges,
      h₁ = max (agg x · Wl0ᵀ + x · Wr0ᵀ + b0) 0,   h₂ = max (agg h₁ · Wl1ᵀ + h₁ · Wr1ᵀ + b1) 0,
      out = agg h₂ · Wl2ᵀ + h₂ · Wr2ᵀ + b2,
  each entry a sum over the 128 input features as the specification spells it.
  The reference's three layers are these by the dense-layer lemma (it adds the bias before the second product;
  a sum of three terms does not care). The blocked program's result buffer holds the third product's output array,
  each product's output is the dense layer of its operand buffers, those buffers hold the transposed weights, the
  bias row and the mean of the MASKED gather, and where every source index wraps into range the masked gather is
  the gather: so it is `netSpec` too.
-/
import proofs.«400809_j43980465111675_1_alg».proof.Proof.KernelFold
import proofs.«400809_j43980465111675_1_alg».proof.Proof.Region0
import proofs.«400809_j43980465111675_1_alg».proof.Proof.Region1
import proofs.«400809_j43980465111675_1_alg».proof.Proof.Region2
import proofs.«400809_j43980465111675_1_alg».proof.Proof.KernelDense
import proofs.«400809_j43980465111675_1_alg».proof.Proof.RefDense
import proofs.«400809_j43980465111675_1_alg».proof.Proof.InRange
import proofs.«400809_j43980465111675_1_alg».proof.Proof.Bridge

noncomputable section

namespace Cert.SageNet

open Idealize.ShloMosaic Idealize.ShloMosaic.TcCoe Idealize.SL.Sem
open Cert.SageSpec

/-- One clamped layer over the reference's mean aggregation. -/
def layerSpec (e : IVec Cert.ReferenceIdeal.S2x600000 32) (h : FVec Ideal Cert.ReferenceIdeal.S50000x128 .f32)
    (Wl Wr : FVec Ideal Cert.ReferenceIdeal.S128x128 .f32) (b : FVec Ideal Cert.ReferenceIdeal.S128 .f32) : FVec Ideal Cert.ReferenceIdeal.S50000x128 .f32 :=
  sage128 (Cert.ReferenceIdeal.Layers.meanAgg e h) h Wl Wr b

/-- The three layers as one function of the argument arrays. -/
def netSpec (x : FVec Ideal Cert.ReferenceIdeal.S50000x128 .f32) (e : IVec Cert.ReferenceIdeal.S2x600000 32)
    (Wl0 Wr0 : FVec Ideal Cert.ReferenceIdeal.S128x128 .f32) (b0 : FVec Ideal Cert.ReferenceIdeal.S128 .f32)
    (Wl1 Wr1 : FVec Ideal Cert.ReferenceIdeal.S128x128 .f32) (b1 : FVec Ideal Cert.ReferenceIdeal.S128 .f32)
    (Wl2 Wr2 : FVec Ideal Cert.ReferenceIdeal.S2x128 .f32) (b2 : FVec Ideal Cert.ReferenceIdeal.S2 .f32) : FVec Ideal Cert.ReferenceIdeal.S50000x2 .f32 :=
  sage2 (Cert.ReferenceIdeal.Layers.meanAgg e (layerSpec e (layerSpec e x Wl0 Wr0 b0) Wl1 Wr1 b1)) (layerSpec e (layerSpec e x Wl0 Wr0 b0) Wl1 Wr1 b1) Wl2 Wr2 b2

/-! ## The reference -/

/-- The reference's three layers are `netSpec`. -/
theorem ref_net (x : FVec Ideal Cert.ReferenceIdeal.S50000x128 .f32) (e : IVec Cert.ReferenceIdeal.S2x600000 32)
    (Wl0 Wr0 : FVec Ideal Cert.ReferenceIdeal.S128x128 .f32) (b0 : FVec Ideal Cert.ReferenceIdeal.S128 .f32)
    (Wl1 Wr1 : FVec Ideal Cert.ReferenceIdeal.S128x128 .f32) (b1 : FVec Ideal Cert.ReferenceIdeal.S128 .f32)
    (Wl2 Wr2 : FVec Ideal Cert.ReferenceIdeal.S2x128 .f32) (b2 : FVec Ideal Cert.ReferenceIdeal.S2 .f32) :
    Cert.ReferenceIdeal.Layers.net x e Wl0 Wr0 b0 Wl1 Wr1 b1 Wl2 Wr2 b2 = netSpec x e Wl0 Wr0 b0 Wl1 Wr1 b1 Wl2 Wr2 b2 := by
  unfold Cert.ReferenceIdeal.Layers.net Cert.ReferenceIdeal.Layers.layer128 netSpec layerSpec
  simp only [Cert.ReferenceIdeal.Dense.relu_lin128_eq, Cert.ReferenceIdeal.Dense.lin2_eq]

/-! ## The blocked program -/

section Kernel

open Cert.KernelIdeal Cert.KernelIdeal.Gen

variable (m : (ℓ : Loc nD τ sig) → Buf (Elt Ideal) ℓ) (ρ : Dev nD → PrngReg)

/-- Where the precondition holds of the launch memory, the mean of the masked gather is the reference's mean aggregation. -/
theorem agg_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = fun _ => 1#1)
    (h : FVec Ideal S50000x128 .f32) :
    Layers.meanOver (Fold.edges m c) (Layers.taken (Fold.edges m c) h) = Cert.ReferenceIdeal.Layers.meanAgg (Fold.edges m c) h := by
  rw [Cert.KernelIdeal.InRange.taken_eq_gathered _ _ _ _ _ _ _ _ _ _ _ hpre h]
  exact Cert.SageBridge.meanOver_gathered_eq _ h

/-- The first product's output array is the first layer of its operand buffers. -/
theorem layer1 (c : Dev nD) : Fold.h1 m ρ c
    = sage128 (Layers.meanOver (Fold.edges m c) (Layers.taken (Fold.edges m c) (Fold.feats m c))) (Fold.feats m c)
        (m ((c : Thread nD τ).loc main_arg2)) (m ((c : Thread nD τ).loc main_arg3)) (m ((c : Thread nD τ).loc main_arg4)) := by
  refine (Region0.region0_array (V3 m ρ) c).trans ?_
  rw [show Region0.aggArr (V3 m ρ) c = _ from Fold.r0_agg m ρ c, show Region0.selfArr (V3 m ρ) c = _ from Fold.w3_arg0 m ρ c,
    show Region0.wlArr (V3 m ρ) c = _ from Fold.r0_wl m ρ c, show Region0.wrArr (V3 m ρ) c = _ from Fold.r0_wr m ρ c,
    show Region0.biasArr (V3 m ρ) c = _ from Fold.r0_b m ρ c]
  exact Cert.KernelIdeal.Dense.block128_eq _ _ _ _ _

/-- The second product's output array is the second layer of its operand buffers. -/
theorem layer2 (c : Dev nD) : Fold.h2 m ρ c
    = sage128 (Layers.meanOver (Fold.edges m c) (Layers.taken (Fold.edges m c) (Fold.h1 m ρ c))) (Fold.h1 m ρ c)
        (m ((c : Thread nD τ).loc main_arg5)) (m ((c : Thread nD τ).loc main_arg6)) (m ((c : Thread nD τ).loc main_arg7)) := by
  refine (Region1.region1_array (V6 m ρ) c).trans ?_
  rw [show Region1.aggArr (V6 m ρ) c = _ from Fold.r1_agg m ρ c, show Region1.selfArr (V6 m ρ) c = _ from Fold.r1_self m ρ c,
    show Region1.wlArr (V6 m ρ) c = _ from Fold.r1_wl m ρ c, show Region1.wrArr (V6 m ρ) c = _ from Fold.r1_wr m ρ c,
    show Region1.biasArr (V6 m ρ) c = _ from Fold.r1_b m ρ c]
  exact Cert.KernelIdeal.Dense.block128_eq _ _ _ _ _

/-- The third product's output array is the last layer of its operand buffers. -/
theorem layer3 (c : Dev nD) : (dat2 (V9 m ρ) c).arrAt 5 cfg2.N
    = sage2 (Layers.meanOver (Fold.edges m c) (Layers.taken (Fold.edges m c) (Fold.h2 m ρ c))) (Fold.h2 m ρ c)
        (m ((c : Thread nD τ).loc main_arg8)) (m ((c : Thread nD τ).loc main_arg9)) (m ((c : Thread nD τ).loc main_arg10)) := by
  refine (Region2.region2_array (V9 m ρ) c).trans ?_
  rw [show Region2.aggArr (V9 m ρ) c = _ from Fold.r2_agg m ρ c, show Region2.selfArr (V9 m ρ) c = _ from Fold.r2_self m ρ c,
    show Region2.wlArr (V9 m ρ) c = _ from Fold.r2_wl m ρ c, show Region2.wrArr (V9 m ρ) c = _ from Fold.r2_wr m ρ c,
    show Region2.biasArr (V9 m ρ) c = _ from Fold.r2_b m ρ c]
  exact Cert.KernelIdeal.Dense.block2_eq _ _ _ _ _

/-- Where the precondition holds, the result buffer's final contents are `netSpec` of the argument arrays. -/
theorem kernel_net (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = fun _ => 1#1) :
    W10 m ρ c (Proc.devRef .tc main_v39)
      = netSpec (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  rw [Fold.w10_out, layer3, agg_eq m c hpre, layer2, agg_eq m c hpre, layer1, agg_eq m c hpre]
  rfl

end Kernel

end Cert.SageNet

end
-- ==== Proof.lean ====
/-
  Three layers of mean-aggregating graph convolution, blocked and plain, are one function over the extended reals.

  Per layer, with `agg h` the mean of the source rows of `h` over each node's incoming edges, both programs compute
      agg h · Wlᵀ + h · Wrᵀ + b
  (clamped below at zero in the first two layers). The blocked program forms it as two row-blocked matrix products
  into zero accumulators plus a bias row, ten blocks of 5000 nodes tiling the 50000; the plain one as two whole
  products with the bias added between them. At the extended reals a change of float format is the identity and a
  sum of three terms does not depend on which of the last two is added first, so the dense step is the same number
  entry by entry: no finiteness is used. The aggregation is the same host operations in both, except that the
  blocked program's gather tests each source index, after wrapping a negative one by the node count, against
  [0, 49999] and replaces a failing edge's row by a not-a-number pattern, which the plain indexing does not. The
  statement's precondition keeps every source index in [-50000, 50000), the range in which the plain program's
  indexing is in range; there every wrapped index passes the test and the two gathers agree.

  The frames of the two kernel programs are the generated ones. The reference's frame is its generated run with the
  result dropped. The idealization rewrote no operation, so there is nothing to preserve. The value claim re-posts
  the blocked program's run (the generated launch of its ten segments, keeping the result buffer) and the
  reference's run at one function `netSpec` of the argument arrays.
-/
import proofs.«400809_j43980465111675_1_alg».proof.Defs
import proofs.«400809_j43980465111675_1_alg».proof.Proof.Gen.Kernel
import proofs.«400809_j43980465111675_1_alg».proof.Proof.Gen.Kernel.Skeleton
import proofs.«400809_j43980465111675_1_alg».proof.Proof.Gen.Kernel.Launch
import proofs.«400809_j43980465111675_1_alg».proof.Proof.Gen.Kernel.Points
import proofs.«400809_j43980465111675_1_alg».proof.Proof.Gen.Kernel.Frame
import proofs.«400809_j43980465111675_1_alg».proof.Proof.Gen.KernelIdeal
import proofs.«400809_j43980465111675_1_alg».proof.Proof.Gen.KernelIdeal.Skeleton
import proofs.«400809_j43980465111675_1_alg».proof.Proof.Gen.KernelIdeal.Launch
import proofs.«400809_j43980465111675_1_alg».proof.Proof.Gen.KernelIdeal.Points
import proofs.«400809_j43980465111675_1_alg».proof.Proof.Gen.KernelIdeal.Frame
import proofs.«400809_j43980465111675_1_alg».proof.Proof.Gen.ReferenceIdeal
import proofs.«400809_j43980465111675_1_alg».proof.Proof.Gen.ReferenceIdeal.Run
import proofs.«400809_j43980465111675_1_alg».proof.Proof.Gen.Pre_finite_inputs
import proofs.«400809_j43980465111675_1_alg».proof.Proof.KernelRun
import proofs.«400809_j43980465111675_1_alg».proof.Proof.Network
import Idealize.ShloMosaic.Adequacy
import Idealize.ShloMosaic.Init

noncomputable section

namespace Cert.Proof

open Idealize.ShloMosaic Idealize.ShloMosaic.TcCoe Idealize.SL.Sem

/-- The blocked program at the word level runs and leaves its arguments alone. -/
theorem frame_kernel : Cert.frame_Kernel := fun m ρ _ => Cert.Kernel.Gen.frame m ρ

/-- The same program read at the extended reals. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the blocked program was read at the extended reals. -/
theorem preserves : Cert.preserves_Kernel_KernelIdeal := trivial

/-- From memories agreeing on the arguments, with every source index in [-50000, 50000), both programs end with
    the result array at `netSpec` of the arguments. -/
theorem algebraic : Cert.algebraic_KernelIdeal_ReferenceIdeal := by
  intro m ρ m' ρ' hpre hagree
  refine ⟨fun c => Cert.SageNet.netSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.SageNet.kernel_net m ρ c (hpre c)), (h c).2⟩)
      (Cert.KernelIdeal.ValueRun.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Layers.res_eq_net, Cert.SageNet.ref_net, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
